-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S16x2 .f32) (main_arg9 : FVec F S16x2 .f32) (main_arg10 : FVec F S2 .f32) (main_v33 : IVec S_ 1) : IVec S_ 1 :=
  let main_v34 : FVec F S16x2 .f32 := Host.absf main_arg8
  let main_cst_12 : FVec F S_ .f32 := constant S_ .f32 0x7F800000#32
  let main_v35 : FVec F S16x2 .f32 := broadcastInDim S16x2 ![] bcast_S_S16x2 main_cst_12
  let main_v36 : IVec S16x2 1 := cmpf .olt main_v34 main_v35
  let main_c_13 : IVec S_ 1 := constantI S_ 1 1#1
  let main_v37 : IVec S_ 1 := (fun x v => Host.reduce IntOp.andi x v reducesTo_S16x2_S_d0_1 h_S_) main_v36 main_c_13
  let main_v38 : IVec S_ 1 := andi main_v33 main_v37
  let main_v39 : FVec F S16x2 .f32 := Host.absf main_arg9
  let main_cst_14 : FVec F S_ .f32 := constant S_ .f32 0x7F800000#32
  let main_v40 : FVec F S16x2 .f32 := broadcastInDim S16x2 ![] bcast_S_S16x2 main_cst_14
  let main_v41 : IVec S16x2 1 := cmpf .olt main_v39 main_v40
  let main_c_15 : IVec S_ 1 := constantI S_ 1 1#1
  let main_v42 : IVec S_ 1 := (fun x v => Host.reduce IntOp.andi x v reducesTo_S16x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S32x16 .f32) (main_arg6 : FVec F S32x16 .f32) (main_arg7 : FVec F S16 .f32) (main_arg8 : FVec F S16x2 .f32) (main_arg9 : FVec F S16x2 .f32) (main_arg10 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x32 .f32) (main_arg3 : FVec F S64x32 .f32) (main_arg4 : FVec F S32 .f32) (main_arg5 : FVec F S32x16 .f32) (main_arg6 : FVec F S32x16 .f32) (main_arg7 : FVec F S16 .f32) (main_arg8 : FVec F S16x2 .f32) (main_arg9 : FVec F S16x2 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x32 : Shape := ⟨2, ![1, 32]⟩
abbrev S100000x32 : Shape := ⟨2, ![100000, 32]⟩
abbrev S10000x64 : Shape := ⟨2, ![10000, 64]⟩
abbrev S10000x32 : Shape := ⟨2, ![10000, 32]⟩
abbrev S1600000x32 : Shape := ⟨2, ![1600000, 32]⟩
abbrev S1x16 : Shape := ⟨2, ![1, 16]⟩
abbrev S100000x16 : Shape := ⟨2, ![100000, 16]⟩
abbrev S10000x16 : Shape := ⟨2, ![10000, 16]⟩
abbrev S1600000x16 : Shape := ⟨2, ![1600000, 16]⟩
abbrev S1x2 : Shape := ⟨2, ![1, 2]⟩
abbrev S100000x2 : Shape := ⟨2, ![100000, 2]⟩
abbrev S10000x2 : Shape := ⟨2, ![10000, 2]⟩
abbrev S10000 : Shape := ⟨1, ![10000]⟩
abbrev S10000x1 : Shape := ⟨2, ![10000, 1]⟩

abbrev nBuf : Space → Nat
  | .hbm => 60
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S32x16, .f32⟩
  | .hbm, ⟨7, _⟩ => ⟨S16, .f32⟩
  | .hbm, ⟨8, _⟩ => ⟨S16x2, .f32⟩
  | .hbm, ⟨9, _⟩ => ⟨S16x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x32, .f32⟩
  | .hbm, ⟨29, _⟩ => ⟨S100000x32, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | .hbm, ⟨43, _⟩ => ⟨S1x16, .f32⟩
  | .hbm, ⟨44, _⟩ => ⟨S100000x16, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x16, .f32⟩
  | .hbm, ⟨54, _⟩ => ⟨S_, .f32⟩
  | .hbm, ⟨55, _⟩ => ⟨S100000x16, .f32⟩
  | .hbm, ⟨56, _⟩ => ⟨S1600000x1, .i32⟩
  | .hbm, ⟨57, _⟩ => ⟨S100000x16, .f32⟩
  | .hbm, ⟨58, _⟩ => ⟨S1x2, .f32⟩
  | .hbm, ⟨59, _⟩ => ⟨S100000x2, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x32, .f32⟩
  | .local _ .vmem, ⟨5, _⟩ => ⟨S64x32, .f32⟩
  | .local _ .vmem, ⟨6, _⟩ => ⟨S1x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32x16, .f32⟩
  | .local _ .vmem, ⟨14, _⟩ => ⟨S32x16, .f32⟩
  | .local _ .vmem, ⟨15, _⟩ => ⟨S1x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S16x2, .f32⟩
  | .local _ .vmem, ⟨23, _⟩ => ⟨S16x2, .f32⟩
  | .local _ .vmem, ⟨24, _⟩ => ⟨S1x2, .f32⟩
  | .local _ .vmem, ⟨25, _⟩ => ⟨S10000x2, .f32⟩
  | .local _ .vmem, ⟨26, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S32_S1x32 : S32.ShapeCasts S1x32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S16_S1x16 : S16.ShapeCasts S1x16
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S2_S1x2 : S2.ShapeCasts S1x2
  shapeCasts_S10000x16_S10000x16 : S10000x16.ShapeCasts S10000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x16_S10000x16_1_0_0_1_n_n_wf : DotDims.WF S10000x32 S32x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x2_S10000x2_1_0_0_1_n_n_wf : DotDims.WF S10000x16 S16x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x16.size a ≤ S100000x16.size a
  hwx1_5 : ∀ i : grid1.Coords, EltTy.bits .f32 = 32 ∨ (Rect.block (s := S100000x16) S10000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x2.size a ≤ S16x2.size a
  hwx2_2 : ∀ i : grid2.Coords, EltTy.bits .f32 = 32 ∨ (Rect.block (s := S16x2) S16x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x2.size a ≤ S16x2.size a
  hwx2_3 : ∀ i : grid2.Coords, EltTy.bits .f32 = 32 ∨ (Rect.block (s := S16x2) S16x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x2.size a ≤ S100000x2.size a
  hwx2_5 : ∀ i : grid2.Coords, EltTy.bits .f32 = 32 ∨ (Rect.block (s := S100000x2) S10000x2.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S10000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S16x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S10000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32 : Shape := ⟨2, ![1, 32]⟩
abbrev S1600000x32 : Shape := ⟨2, ![1600000, 32]⟩
abbrev S100000x16 : Shape := ⟨2, ![100000, 16]⟩
abbrev S1x16 : Shape := ⟨2, ![1, 16]⟩
abbrev S1600000x16 : Shape := ⟨2, ![1600000, 16]⟩
abbrev S100000x2 : Shape := ⟨2, ![100000, 2]⟩
abbrev S1x2 : Shape := ⟨2, ![1, 2]⟩
abbrev S100000 : Shape := ⟨1, ![100000]⟩
abbrev S100000x1 : Shape := ⟨2, ![100000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S32x16, .f32⟩
  | .hbm, ⟨7, _⟩ => ⟨S16, .f32⟩
  | .hbm, ⟨8, _⟩ => ⟨S16x2, .f32⟩
  | .hbm, ⟨9, _⟩ => ⟨S16x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x32, .f32⟩
  | .hbm, ⟨29, _⟩ => ⟨S100000x32, .f32⟩
  | .hbm, ⟨30, _⟩ => ⟨S100000x32, .f32⟩
  | .hbm, ⟨31, _⟩ => ⟨S1x32, .f32⟩
  | .hbm, ⟨32, _⟩ => ⟨S100000x32, .f32⟩
  | .hbm, ⟨33, _⟩ => ⟨S100000x32, .f32⟩
  | .hbm, ⟨34, _⟩ => ⟨S_, .f32⟩
  | .hbm, ⟨35, _⟩ => ⟨S100000x32, .f32⟩
  | .hbm, ⟨36, _⟩ => ⟨S100000x32, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x32, .f32⟩
  | .hbm, ⟨46, _⟩ => ⟨S_, .f32⟩
  | .hbm, ⟨47, _⟩ => ⟨S100000x32, .f32⟩
  | .hbm, ⟨48, _⟩ => ⟨S1600000x1, .i32⟩
  | .hbm, ⟨49, _⟩ => ⟨S100000x32, .f32⟩
  | .hbm, ⟨50, _⟩ => ⟨S100000x16, .f32⟩
  | .hbm, ⟨51, _⟩ => ⟨S100000x16, .f32⟩
  | .hbm, ⟨52, _⟩ => ⟨S100000x16, .f32⟩
  | .hbm, ⟨53, _⟩ => ⟨S1x16, .f32⟩
  | .hbm, ⟨54, _⟩ => ⟨S100000x16, .f32⟩
  | .hbm, ⟨55, _⟩ => ⟨S100000x16, .f32⟩
  | .hbm, ⟨56, _⟩ => ⟨S_, .f32⟩
  | .hbm, ⟨57, _⟩ => ⟨S100000x16, .f32⟩
  | .hbm, ⟨58, _⟩ => ⟨S100000x16, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x16, .f32⟩
  | .hbm, ⟨68, _⟩ => ⟨S_, .f32⟩
  | .hbm, ⟨69, _⟩ => ⟨S100000x16, .f32⟩
  | .hbm, ⟨70, _⟩ => ⟨S1600000x1, .i32⟩
  | .hbm, ⟨71, _⟩ => ⟨S100000x16, .f32⟩
  | .hbm, ⟨72, _⟩ => ⟨S100000x2, .f32⟩
  | .hbm, ⟨73, _⟩ => ⟨S100000x2, .f32⟩
  | .hbm, ⟨74, _⟩ => ⟨S100000x2, .f32⟩
  | .hbm, ⟨75, _⟩ => ⟨S1x2, .f32⟩
  | .hbm, ⟨76, _⟩ => ⟨S100000x2, .f32⟩
  | .hbm, ⟨77, _⟩ => ⟨S100000x2, .f32⟩
  | .hbm, ⟨78, _⟩ => ⟨S_, .f32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x2, .f32⟩
  | .hbm, ⟨85, _⟩ => ⟨S100000x2, .f32⟩
  | .hbm, ⟨86, _⟩ => ⟨S100000x2, .f32⟩
  | .hbm, ⟨87, _⟩ => ⟨S_, .f32⟩
  | .hbm, ⟨88, _⟩ => ⟨S100000, .f32⟩
  | .hbm, ⟨89, _⟩ => ⟨S100000x1, .f32⟩
  | .hbm, ⟨90, _⟩ => ⟨S100000x2, .f32⟩
  | .hbm, ⟨91, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x2_S100000x2_1_0_0_1_n_n_wf : DotDims.WF S100000x16 S16x2 S100000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.LibPlainMatmul.lean ====
/-
  A plain matrix product read at an entry, over the extended reals.

  For dimension numbers with no batch axes, whose one non-contracting axis on each side is the left operand's axis 0
  and the right operand's axis 1, and which contract the left operand's axis 1 with the right operand's axis 0
  (rows times columns: [M, K] times [K, N] gives [M, N]), the product accumulated into a zero block is, at entry (p, n),
      sum_{k < K} left (p, k) * right (k, n).
  The two coordinate facts behind it: on its non-contracting axis an operand's index is the result's coordinate on the
  axis that operand contributes (the left operand's first, then the right operand's), and on its contracting axis it is
  the contraction position.
-/
import Idealize.ShloMosaic.PureOps.Ideal.Laws
import Idealize.ShloMosaic.Lib.ValueIdx

noncomputable section

namespace Cert.Lib.PlainMatmul

open Idealize.ShloMosaic Idealize.ShloMosaic.ValueIdx

section Coordinates

variable {sl sr so : Shape} (d : DotDims sl sr so)

/-- With no batch axes and `a` the left operand's only non-contracting axis, the left index on `a` is the result
    index's coordinate on the result's first axis. -/
theorem lhsIdx_val_of_non {a : Fin sl.rank} (hb : d.lhsBatch = []) (hn : d.lhsNonContracting = [a]) (j : so.Idx)
    (k : d.contr.Idx) (h0 : 0 < so.rank) : (d.lhsIdx j k a).val = (j ⟨0, h0⟩).val := by
  have hmem : a ∈ d.lhsNonContracting := by rw [hn]; exact List.mem_singleton.mpr rfl
  have hnb : a ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one non-contracting axis on the left, and `a` the right operand's only non-contracting axis,
    the right index on `a` is the result index's coordinate on the result's second axis. -/
theorem rhsIdx_val_of_non {a : Fin sr.rank} (hlb : d.lhsBatch = []) (hln : d.lhsNonContracting.length = 1)
    (hb : d.rhsBatch = []) (hn : d.rhsNonContracting = [a]) (j : so.Idx) (k : d.contr.Idx) (h1 : 1 < so.rank) :
    (d.rhsIdx j k a).val = (j ⟨1, h1⟩).val := by
  have hmem : a ∈ d.rhsNonContracting := by rw [hn]; exact List.mem_singleton.mpr rfl
  have hnb : a ∉ d.rhsBatch := by rw [hb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Coordinates

/-- Rows times columns into a zero accumulator: entry (p, n) is the sum over the contracted coordinate. -/
theorem matmul_zero_apply {M K N : Nat} {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![M, K]⟩ φ₁) (r : FVec Ideal ⟨2, ![K, N]⟩ φ₂) (p : Fin M) (n : Fin N) :
    matmul d none l r (constant ⟨2, ![M, N]⟩ .f32 0x00000000#32) (ix2 p n) = ∑ k : Fin K, l (ix2 p k) * r (ix2 k n) := by
  have hr : d.contr.rank = 1 := by rw [d.rank_contr, hlc]; rfl
  have hs : d.contr.size ⟨0, by omega⟩ = K := by
    rw [d.size_contr 0 (by rw [hlc]; exact Nat.one_pos)]
    simp [hlc]
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k := funext fun a => Fin.ext (by
    match a with
    | ⟨0, _⟩ => exact lhsIdx_val_of_non d hlb hln _ _ (by show 0 < 2; omega)
    | ⟨1, _⟩ => exact (d.lhsIdx_val_of_single hlc _ _).trans hk)
  have er : d.rhsIdx (ix2 p n) ((contrEquiv1 d K hr hs).symm k) = ix2 k n := funext fun a => Fin.ext (by
    match a with
    | ⟨0, _⟩ => exact (d.rhsIdx_val_of_single hrc _ _).trans hk
    | ⟨1, _⟩ => exact rhsIdx_val_of_non d hlb (by rw [hln]; rfl) hrb hrn _ _ (by show 1 < 2; omega))
  rw [el, er]

end Cert.Lib.PlainMatmul

end
-- ==== Proof.LayerSpec.lean ====
/-
  One graph-convolution layer over the extended reals, for any node count N, input width K and output width M.

  A node p with neighbourhood sum `agg p` and own features `x p` gets, at output feature n,
      lin p n = (sum_k agg (p, k) * wrel (k, n)) + (sum_k x (p, k) * wroot (k, n)) + b n.
  A hidden layer keeps max (lin p n) 0; the last layer takes the softmax of the row lin p over its M features:
  with mx the row's maximum (taken from minus infinity), exp (lin p n - mx) divided by the sum over n' of
  exp (lin p n' - mx).

  Each of these is row-local: row p of the result reads row p of `agg` and of `x` and nothing else of them. So a
  block of rows computed from the same block of rows of the operands is that block of the whole result, which is how
  a computation tiled over row blocks meets the same computation done on the whole arrays. Both spellings of the
  affine part are read here at an entry: a product accumulated into a zero block, and a product with no accumulator.
-/
import Idealize.ShloMosaic.PureOps.Ideal.Laws
import Idealize.ShloMosaic.Lib.ValueIdx
import Idealize.ShloMosaic.Lib.ValueLayout
import Idealize.ShloMosaic.Lib.KernelVsHost
import proofs.«145360_j13211319403151_1_alg».proof.Proof.LibPlainMatmul

noncomputable section

namespace Cert.GraphConv

open Idealize.ShloMosaic Idealize.ShloMosaic.ValueIdx

section Spec

variable {N K M : Nat}

/-- The affine part of a layer at node `p`, output feature `n`. -/
def lin (agg x : FVec Ideal ⟨2, ![N, K]⟩ .f32) (wrel wroot : FVec Ideal ⟨2, ![K, M]⟩ .f32) (b : Fin M → EReal)
    (p : Fin N) (n : Fin M) : EReal :=
  (∑ k : Fin K, agg (ix2 p k) * wrel (ix2 k n)) + (∑ k : Fin K, x (ix2 p k) * wroot (ix2 k n)) + b n

/-- A hidden layer: the affine part cut off below at zero. -/
def reluOut (agg x : FVec Ideal ⟨2, ![N, K]⟩ .f32) (wrel wroot : FVec Ideal ⟨2, ![K, M]⟩ .f32) (b : Fin M → EReal) :
    FVec Ideal ⟨2, ![N, M]⟩ .f32 :=
  fun j => max (lin agg x wrel wroot b (j 0) (j 1)) (Ideal.ofBits .f32 0x00000000#32)

/-- A row's maximum, taken from minus infinity (and once more against minus infinity, as both programs do). -/
def rowMax (h : Fin M → EReal) : EReal :=
  max (Ideal.ofBits .f32 0xFF800000#32) ((Finset.univ : Finset (Fin M)).fold max (Ideal.ofBits .f32 0xFF800000#32) h)

/-- The softmax of one row at feature `n`. -/
def softmaxRow (h : Fin M → EReal) (n : Fin M) : EReal :=
  Ideal.div (Ideal.exp (h n - rowMax h)) (∑ n' : Fin M, Ideal.exp (h n' - rowMax h))

/-- The last layer: the softmax of each node's affine row. -/
def softmaxOut (agg x : FVec Ideal ⟨2, ![N, K]⟩ .f32) (wrel wroot : FVec Ideal ⟨2, ![K, M]⟩ .f32) (b : Fin M → EReal) :
    FVec Ideal ⟨2, ![N, M]⟩ .f32 :=
  fun j => softmaxRow (lin agg x wrel wroot b (j 0)) (j 1)

/-- Row locality of the affine part: it reads row `p` of the two node arrays only. -/
theorem lin_congr {N' : Nat} (agg x : FVec Ideal ⟨2, ![N, K]⟩ .f32) (agg' x' : FVec Ideal ⟨2, ![N', K]⟩ .f32)
    (wrel wroot wrel' wroot' : FVec Ideal ⟨2, ![K, M]⟩ .f32) (b b' : Fin M → EReal) (p : Fin N) (p' : Fin N')
    (ha : ∀ k, agg (ix2 p k) = agg' (ix2 p' k)) (hx : ∀ k, x (ix2 p k) = x' (ix2 p' k))
    (hr : ∀ k n, wrel (ix2 k n) = wrel' (ix2 k n)) (ho : ∀ k n, wroot (ix2 k n) = wroot' (ix2 k n))
    (hb : ∀ n, b n = b' n) :
    lin agg x wrel wroot b p = lin agg' x' wrel' wroot' b' p' := by
  funext n
  simp only [lin, ha, hx, hr, ho, hb]

end Spec

section Affine

variable {R K M : Nat}

/-- The affine part as a row-block computation spells it: two products accumulated into zero blocks (their operands
    narrowed first, which changes nothing over the extended reals), added, plus the one-row bias laid along the rows. -/
theorem affine_acc_apply (d : DotDims ⟨2, ![R, K]⟩ ⟨2, ![K, M]⟩ ⟨2, ![R, M]⟩)
    (hlb : d.lhsBatch = []) (hln : d.lhsNonContracting = [0]) (hlc : d.lhsContracting = [1])
    (hrb : d.rhsBatch = []) (hrn : d.rhsNonContracting = [1]) (hrc : d.rhsContracting = [0])
    (a x : FVec Ideal ⟨2, ![R, K]⟩ .f32) (wr wo : FVec Ideal ⟨2, ![K, M]⟩ .f32) (b2 : FVec Ideal ⟨2, ![1, M]⟩ .f32)
    (hlt : FTy.bf16.bits < FTy.f32.bits) (hbc : (⟨2, ![1, M]⟩ : Shape).Broadcasts ⟨2, ![R, M]⟩) (r : Fin R) (n : Fin M) :
    addf (addf (matmul d none (truncf .bf16 a hlt) (truncf .bf16 wr hlt) (constant ⟨2, ![R, M]⟩ .f32 0x00000000#32))
               (matmul d none (truncf .bf16 x hlt) (truncf .bf16 wo hlt) (constant ⟨2, ![R, M]⟩ .f32 0x00000000#32)))
         (broadcastTo ⟨2, ![R, M]⟩ b2 hbc) (ix2 r n)
      = lin a x wr wo (fun n' => b2 (ix2 (0 : Fin 1) n')) r n := by
  rw [addf_apply, addf_apply, Cert.Lib.PlainMatmul.matmul_zero_apply d hlb hln hlc hrb hrn hrc,
    Cert.Lib.PlainMatmul.matmul_zero_apply d hlb hln hlc hrb hrn hrc, broadcastTo_1b_ab_apply]
  rfl

/-- The affine part as a whole-array computation spells it: two products with no accumulator, added, plus the bias
    vector laid along the rows. -/
theorem affine_dot_apply (d : DotDims ⟨2, ![R, K]⟩ ⟨2, ![K, M]⟩ ⟨2, ![R, M]⟩)
    (hlb : d.lhsBatch = []) (hln : d.lhsNonContracting = [0]) (hlc : d.lhsContracting = [1])
    (hrb : d.rhsBatch = []) (hrn : d.rhsNonContracting = [1]) (hrc : d.rhsContracting = [0])
    (a x : FVec Ideal ⟨2, ![R, K]⟩ .f32) (wr wo : FVec Ideal ⟨2, ![K, M]⟩ .f32) (b : FVec Ideal ⟨1, ![M]⟩ .f32)
    (hb1 : (⟨1, ![M]⟩ : Shape).BroadcastsInDim ⟨2, ![1, M]⟩ ![1])
    (hb2 : (⟨2, ![1, M]⟩ : Shape).BroadcastsInDim ⟨2, ![R, M]⟩ ![0, 1]) (r : Fin R) (n : Fin M) :
    addf (addf (Host.dotGeneral d none a wr) (Host.dotGeneral d none x wo))
         (broadcastInDim ⟨2, ![R, M]⟩ ![0, 1] hb2 (broadcastInDim ⟨2, ![1, M]⟩ ![1] hb1 b)) (ix2 r n)
      = lin a x wr wo (fun n' => b (ix1 n')) r n := by
  rw [addf_apply, addf_apply, ← matmul_zero_eq_dotGeneral, ← matmul_zero_eq_dotGeneral,
    Cert.Lib.PlainMatmul.matmul_zero_apply d hlb hln hlc hrb hrn hrc,
    Cert.Lib.PlainMatmul.matmul_zero_apply d hlb hln hlc hrb hrn hrc, broadcastInDim_oneRow_apply]
  have e : broadcastInDim ⟨2, ![1, M]⟩ ![1] hb1 b (ix2 (0 : Fin 1) n) = b (ix1 n) := by
    refine broadcastInDim_apply ![1] hb1 b (ix2 (0 : Fin 1) n) (ix1 n) ?_
    intro ax
    match ax with
    | ⟨0, _⟩ =>
      show n.val = if M = 1 then 0 else n.val
      split
      · have := n.isLt; omega
      · rfl
  rw [e]
  rfl

end Affine

end Cert.GraphConv

end
-- ==== Proof.Layer1Value.lean ====
/-
  The first layer's row blocks. Grid point t of the first region works on rows 10000 t .. 10000 t + 9999: it reads
  that block of rows of the neighbourhood sums and of the node features, the two weight matrices and the bias row
  whole, and writes back max (lin, 0) for those rows. So what point t writes back is block t of `reluOut` of the
  arrays as the region finds them, and the ten blocks tile the result array.
-/
import proofs.«145360_j13211319403151_1_alg».proof.Proof.Gen.KernelIdeal.Frame
import proofs.«145360_j13211319403151_1_alg».proof.Proof.LayerSpec
import Idealize.ShloMosaic.Lib.Pipeline.Value

set_option maxRecDepth 16384

noncomputable section

namespace Cert.KernelIdeal.Layer1

open Cert.KernelIdeal Cert.KernelIdeal.Gen Cert.GraphConv
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at row r of the block, feature n. -/
theorem pay (a x : Vec Ideal S10000x64 .f32) (wr wo : Vec Ideal S64x32 .f32) (b2 : Vec Ideal S1x32 .f32)
    (r : Fin 10000) (n : Fin 32) :
    k0_pay1 (F := Ideal) a x wr wo b2 (ix2 r n)
      = max (lin (N := 10000) (K := 64) (M := 32) a x wr wo (fun n' => b2 (ix2 (0 : Fin 1) n')) r n)
          (Ideal.ofBits .f32 0x00000000#32) := by
  unfold k0_pay1
  simp only [shapeCast_self]
  rw [maximumf_apply, affine_acc_apply dot_S10000x64_S64x32_S10000x32_1_0_0_1_n_n rfl rfl rfl rfl rfl rfl]
  rfl

/-- The result array of the layer as one function of the arrays the region finds. -/
abbrev out (c : Dev nD) : FVec Ideal ⟨2, ![100000, 32]⟩ .f32 :=
  reluOut (N := 100000) (K := 64) (M := 32) (V c main_v13) (V c main_arg0) (V c main_arg2) (V c main_arg3)
    (fun n => V c main_v14 (ix2 (0 : Fin 1) n))

/-- The stored value at an index j of the block is the layer's value at the array index i, when row j 0 of the two
    node blocks is row i 0 of the node arrays, the other blocks are their arrays, and the features agree. -/
theorem point_eq (ablk xblk : Vec Ideal S10000x64 .f32) (wrb wob : Vec Ideal S64x32 .f32) (bb : Vec Ideal S1x32 .f32)
    (agg x : FVec Ideal ⟨2, ![100000, 64]⟩ .f32) (wr wo : FVec Ideal ⟨2, ![64, 32]⟩ .f32) (b : Fin 32 → EReal)
    (j : S10000x32.Idx) (i : S100000x32.Idx)
    (ha : ∀ k : Fin 64, ablk (ix2 (j 0) k) = agg (ix2 (i 0) k)) (hx : ∀ k : Fin 64, xblk (ix2 (j 0) k) = x (ix2 (i 0) k))
    (hr : ∀ (k : Fin 64) (n : Fin 32), wrb (ix2 k n) = wr (ix2 k n)) (ho : ∀ (k : Fin 64) (n : Fin 32), wob (ix2 k n) = wo (ix2 k n))
    (hb : ∀ n : Fin 32, bb (ix2 (0 : Fin 1) n) = b n) (h1 : (j 1).val = (i 1).val) :
    k0_pay1 (F := Ideal) ablk xblk wrb wob bb j = reluOut (N := 100000) (K := 64) (M := 32) agg x wr wo b i := by
  obtain ⟨r, n, rfl⟩ : ∃ (r : Fin 10000) (n : Fin 32), j = ix2 r n := ⟨j 0, j 1, eq_ix2 j⟩
  rw [pay]
  unfold reluOut
  have e1 : (i 1 : Fin 32) = n := Fin.ext h1.symm
  rw [lin_congr ablk xblk agg x wrb wob wr wo (fun n' => bb (ix2 (0 : Fin 1) n')) b r (i 0) ha hx hr ho hb, e1]

theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer's result. -/
theorem flushed (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x32) hz, View.ld_unit_zero (S := S1x32) hz]
  funext j
  show k0_pay1 (F := Ideal) (iblk0 V c 0 t) (iblk0 V c 1 t) (iblk0 V c 2 t) (iblk0 V c 3 t) (iblk0 V c 4 t) j
    = out V c (((cfg0.win 5).blk t).view.emb j)
  obtain ⟨e00, e01, e10, e11, e20, e21, e30, e31, e40, e41, e50, e51⟩ := idx_facts t
  refine point_eq (iblk0 V c 0 t) (iblk0 V c 1 t) (iblk0 V c 2 t) (iblk0 V c 3 t) (iblk0 V c 4 t)
    (V c main_v13) (V c main_arg0) (V c main_arg2) (V c main_arg3) (fun n => V c main_v14 (ix2 (0 : Fin 1) n))
    j (((cfg0.win 5).blk t).view.emb j) ?_ ?_ ?_ ?_ ?_ ?_
  · intro k
    show V c main_v13 (((cfg0.win 0).blk t).view.emb (ix2 (j 0) k))
      = V c main_v13 (ix2 ((((cfg0.win 5).blk t).view.emb j) 0) k)
    refine congrArg (V c main_v13) (funext fun a => Fin.ext ?_)
    match a with
    | ⟨0, _⟩ =>
      show win0_0.index t (0 : Fin 2) * 10000 + 1 * (j 0).val = win0_5.index t (0 : Fin 2) * 10000 + 1 * (j 0).val
      omega
    | ⟨1, _⟩ =>
      show win0_0.index t (1 : Fin 2) * 64 + 1 * k.val = k.val
      omega
  · intro k
    show V c main_arg0 (((cfg0.win 1).blk t).view.emb (ix2 (j 0) k))
      = V c main_arg0 (ix2 ((((cfg0.win 5).blk t).view.emb j) 0) k)
    refine congrArg (V c main_arg0) (funext fun a => Fin.ext ?_)
    match a with
    | ⟨0, _⟩ =>
      show win0_1.index t (0 : Fin 2) * 10000 + 1 * (j 0).val = win0_5.index t (0 : Fin 2) * 10000 + 1 * (j 0).val
      omega
    | ⟨1, _⟩ =>
      show win0_1.index t (1 : Fin 2) * 64 + 1 * k.val = k.val
      omega
  · intro k n
    show V c main_arg2 (((cfg0.win 2).blk t).view.emb (ix2 k n)) = V c main_arg2 (ix2 k n)
    refine congrArg (V c main_arg2) (funext fun a => Fin.ext ?_)
    match a with
    | ⟨0, _⟩ =>
      show win0_2.index t (0 : Fin 2) * 64 + 1 * k.val = k.val
      omega
    | ⟨1, _⟩ =>
      show win0_2.index t (1 : Fin 2) * 32 + 1 * n.val = n.val
      omega
  · intro k n
    show V c main_arg3 (((cfg0.win 3).blk t).view.emb (ix2 k n)) = V c main_arg3 (ix2 k n)
    refine congrArg (V c main_arg3) (funext fun a => Fin.ext ?_)
    match a with
    | ⟨0, _⟩ =>
      show win0_3.index t (0 : Fin 2) * 64 + 1 * k.val = k.val
      omega
    | ⟨1, _⟩ =>
      show win0_3.index t (1 : Fin 2) * 32 + 1 * n.val = n.val
      omega
  · intro n
    show V c main_v14 (((cfg0.win 4).blk t).view.emb (ix2 (0 : Fin 1) n)) = V c main_v14 (ix2 (0 : Fin 1) n)
    refine congrArg (V c main_v14) (funext fun a => Fin.ext ?_)
    match a with
    | ⟨0, _⟩ =>
      show win0_4.index t (0 : Fin 2) * 1 + 1 * 0 = 0
      omega
    | ⟨1, _⟩ =>
      show win0_4.index t (1 : Fin 2) * 32 + 1 * n.val = n.val
      omega
  · show (j 1).val = win0_5.index t (1 : Fin 2) * 32 + 1 * (j 1).val
    omega

/-- An index of the result array is in point t's block iff each coordinate is in the block's range on its axis. -/
theorem mem_blk (t : Fin cfg0.N) (i : S100000x32.Idx) :
    i ∈ ((cfg0.win 5).blk t).view.set ↔ ∀ a : Fin 2, win0_5.index t a * S10000x32.size a ≤ (i a).val
      ∧ (i a).val < win0_5.index t a * S10000x32.size a + S10000x32.size a := by
  show i ∈ ((View.whole main_v15).slice (win0_5.rect t)).set ↔ _
  rw [View.set_slice_whole, Rect.mem_set_unit]
  exact Iff.rfl

/-- Row i 0 of the result lies in the block of point (i 0) / 10000: the ten blocks tile the array. -/
theorem cover (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 10 := rfl
  have ht : (i 0).val / 10000 < cfg0.N := by rw [hN]; omega
  refine ⟨⟨(i 0).val / 10000, ht⟩, flush0_5 _, ?_⟩
  rw [mem_blk]
  obtain ⟨-, -, -, -, -, -, -, -, -, -, e50, e51⟩ := idx_facts ⟨(i 0).val / 10000, ht⟩
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win0_5.index ⟨(i 0).val / 10000, ht⟩ (1 : Fin 2) * 32 ≤ (i 1).val
      ∧ (i 1).val < win0_5.index ⟨(i 0).val / 10000, ht⟩ (1 : Fin 2) * 32 + 32
    rw [e51]
    omega

/-- The layer's result array after the region: `reluOut` of the arrays the region finds. -/
theorem final (c : Dev nD) : (dat0 V c).arrAt 5 cfg0.N = out V c :=
  (dat0 V c).arrAt_eq_of_cover 5 (out V c) (fun t _ => flushed V c t) cover

end Cert.KernelIdeal.Layer1

end
-- ==== Proof.Layer2Value.lean ====
/-
  The second layer's row blocks. Grid point t of the second region works on rows 10000 t .. 10000 t + 9999: it reads
  that block of rows of the neighbourhood sums and of the node features, the two weight matrices and the bias row
  whole, and writes back max (lin, 0) for those rows. So what point t writes back is block t of `reluOut` of the
  arrays as the region finds them, and the ten blocks tile the result array.
-/
import proofs.«145360_j13211319403151_1_alg».proof.Proof.Gen.KernelIdeal.Frame
import proofs.«145360_j13211319403151_1_alg».proof.Proof.LayerSpec
import Idealize.ShloMosaic.Lib.Pipeline.Value

set_option maxRecDepth 16384

noncomputable section

namespace Cert.KernelIdeal.Layer2

open Cert.KernelIdeal Cert.KernelIdeal.Gen Cert.GraphConv
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at row r of the block, feature n. -/
theorem pay (a x : Vec Ideal S10000x32 .f32) (wr wo : Vec Ideal S32x16 .f32) (b2 : Vec Ideal S1x16 .f32)
    (r : Fin 10000) (n : Fin 16) :
    k1_pay1 (F := Ideal) a x wr wo b2 (ix2 r n)
      = max (lin (N := 10000) (K := 32) (M := 16) a x wr wo (fun n' => b2 (ix2 (0 : Fin 1) n')) r n)
          (Ideal.ofBits .f32 0x00000000#32) := by
  unfold k1_pay1
  simp only [shapeCast_self]
  rw [maximumf_apply, affine_acc_apply dot_S10000x32_S32x16_S10000x16_1_0_0_1_n_n rfl rfl rfl rfl rfl rfl]
  rfl

/-- The result array of the layer as one function of the arrays the region finds. -/
abbrev out (c : Dev nD) : FVec Ideal ⟨2, ![100000, 16]⟩ .f32 :=
  reluOut (N := 100000) (K := 32) (M := 16) (V c main_v25) (V c main_v15) (V c main_arg5) (V c main_arg6)
    (fun n => V c main_v26 (ix2 (0 : Fin 1) n))

/-- The stored value at an index j of the block is the layer's value at the array index i, when row j 0 of the two
    node blocks is row i 0 of the node arrays, the other blocks are their arrays, and the features agree. -/
theorem point_eq (ablk xblk : Vec Ideal S10000x32 .f32) (wrb wob : Vec Ideal S32x16 .f32) (bb : Vec Ideal S1x16 .f32)
    (agg x : FVec Ideal ⟨2, ![100000, 32]⟩ .f32) (wr wo : FVec Ideal ⟨2, ![32, 16]⟩ .f32) (b : Fin 16 → EReal)
    (j : S10000x16.Idx) (i : S100000x16.Idx)
    (ha : ∀ k : Fin 32, ablk (ix2 (j 0) k) = agg (ix2 (i 0) k)) (hx : ∀ k : Fin 32, xblk (ix2 (j 0) k) = x (ix2 (i 0) k))
    (hr : ∀ (k : Fin 32) (n : Fin 16), wrb (ix2 k n) = wr (ix2 k n)) (ho : ∀ (k : Fin 32) (n : Fin 16), wob (ix2 k n) = wo (ix2 k n))
    (hb : ∀ n : Fin 16, bb (ix2 (0 : Fin 1) n) = b n) (h1 : (j 1).val = (i 1).val) :
    k1_pay1 (F := Ideal) ablk xblk wrb wob bb j = reluOut (N := 100000) (K := 32) (M := 16) agg x wr wo b i := by
  obtain ⟨r, n, rfl⟩ : ∃ (r : Fin 10000) (n : Fin 16), j = ix2 r n := ⟨j 0, j 1, eq_ix2 j⟩
  rw [pay]
  unfold reluOut
  have e1 : (i 1 : Fin 16) = n := Fin.ext h1.symm
  rw [lin_congr ablk xblk agg x wrb wob wr wo (fun n' => bb (ix2 (0 : Fin 1) n')) b r (i 0) ha hx hr ho hb, e1]

theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer's result. -/
theorem flushed (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S10000x32) hz, View.ld_unit_zero (S := S32x16) hz, View.ld_unit_zero (S := S1x16) hz]
  funext j
  show k1_pay1 (F := Ideal) (iblk1 V c 0 t) (iblk1 V c 1 t) (iblk1 V c 2 t) (iblk1 V c 3 t) (iblk1 V c 4 t) j
    = out V c (((cfg1.win 5).blk t).view.emb j)
  obtain ⟨e00, e01, e10, e11, e20, e21, e30, e31, e40, e41, e50, e51⟩ := idx_facts t
  refine point_eq (iblk1 V c 0 t) (iblk1 V c 1 t) (iblk1 V c 2 t) (iblk1 V c 3 t) (iblk1 V c 4 t)
    (V c main_v25) (V c main_v15) (V c main_arg5) (V c main_arg6) (fun n => V c main_v26 (ix2 (0 : Fin 1) n))
    j (((cfg1.win 5).blk t).view.emb j) ?_ ?_ ?_ ?_ ?_ ?_
  · intro k
    show V c main_v25 (((cfg1.win 0).blk t).view.emb (ix2 (j 0) k))
      = V c main_v25 (ix2 ((((cfg1.win 5).blk t).view.emb j) 0) k)
    refine congrArg (V c main_v25) (funext fun a => Fin.ext ?_)
    match a with
    | ⟨0, _⟩ =>
      show win1_0.index t (0 : Fin 2) * 10000 + 1 * (j 0).val = win1_5.index t (0 : Fin 2) * 10000 + 1 * (j 0).val
      omega
    | ⟨1, _⟩ =>
      show win1_0.index t (1 : Fin 2) * 32 + 1 * k.val = k.val
      omega
  · intro k
    show V c main_v15 (((cfg1.win 1).blk t).view.emb (ix2 (j 0) k))
      = V c main_v15 (ix2 ((((cfg1.win 5).blk t).view.emb j) 0) k)
    refine congrArg (V c main_v15) (funext fun a => Fin.ext ?_)
    match a with
    | ⟨0, _⟩ =>
      show win1_1.index t (0 : Fin 2) * 10000 + 1 * (j 0).val = win1_5.index t (0 : Fin 2) * 10000 + 1 * (j 0).val
      omega
    | ⟨1, _⟩ =>
      show win1_1.index t (1 : Fin 2) * 32 + 1 * k.val = k.val
      omega
  · intro k n
    show V c main_arg5 (((cfg1.win 2).blk t).view.emb (ix2 k n)) = V c main_arg5 (ix2 k n)
    refine congrArg (V c main_arg5) (funext fun a => Fin.ext ?_)
    match a with
    | ⟨0, _⟩ =>
      show win1_2.index t (0 : Fin 2) * 32 + 1 * k.val = k.val
      omega
    | ⟨1, _⟩ =>
      show win1_2.index t (1 : Fin 2) * 16 + 1 * n.val = n.val
      omega
  · intro k n
    show V c main_arg6 (((cfg1.win 3).blk t).view.emb (ix2 k n)) = V c main_arg6 (ix2 k n)
    refine congrArg (V c main_arg6) (funext fun a => Fin.ext ?_)
    match a with
    | ⟨0, _⟩ =>
      show win1_3.index t (0 : Fin 2) * 32 + 1 * k.val = k.val
      omega
    | ⟨1, _⟩ =>
      show win1_3.index t (1 : Fin 2) * 16 + 1 * n.val = n.val
      omega
  · intro n
    show V c main_v26 (((cfg1.win 4).blk t).view.emb (ix2 (0 : Fin 1) n)) = V c main_v26 (ix2 (0 : Fin 1) n)
    refine congrArg (V c main_v26) (funext fun a => Fin.ext ?_)
    match a with
    | ⟨0, _⟩ =>
      show win1_4.index t (0 : Fin 2) * 1 + 1 * 0 = 0
      omega
    | ⟨1, _⟩ =>
      show win1_4.index t (1 : Fin 2) * 16 + 1 * n.val = n.val
      omega
  · show (j 1).val = win1_5.index t (1 : Fin 2) * 16 + 1 * (j 1).val
    omega

/-- An index of the result array is in point t's block iff each coordinate is in the block's range on its axis. -/
theorem mem_blk (t : Fin cfg1.N) (i : S100000x16.Idx) :
    i ∈ ((cfg1.win 5).blk t).view.set ↔ ∀ a : Fin 2, win1_5.index t a * S10000x16.size a ≤ (i a).val
      ∧ (i a).val < win1_5.index t a * S10000x16.size a + S10000x16.size a := by
  show i ∈ ((View.whole main_v27).slice (win1_5.rect t)).set ↔ _
  rw [View.set_slice_whole, Rect.mem_set_unit]
  exact Iff.rfl

/-- Row i 0 of the result lies in the block of point (i 0) / 10000: the ten blocks tile the array. -/
theorem cover (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 10 := rfl
  have ht : (i 0).val / 10000 < cfg1.N := by rw [hN]; omega
  refine ⟨⟨(i 0).val / 10000, ht⟩, flush1_5 _, ?_⟩
  rw [mem_blk]
  obtain ⟨-, -, -, -, -, -, -, -, -, -, e50, e51⟩ := idx_facts ⟨(i 0).val / 10000, ht⟩
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win1_5.index ⟨(i 0).val / 10000, ht⟩ (1 : Fin 2) * 16 ≤ (i 1).val
      ∧ (i 1).val < win1_5.index ⟨(i 0).val / 10000, ht⟩ (1 : Fin 2) * 16 + 16
    rw [e51]
    omega

/-- The layer's result array after the region: `reluOut` of the arrays the region finds. -/
theorem final (c : Dev nD) : (dat1 V c).arrAt 5 cfg1.N = out V c :=
  (dat1 V c).arrAt_eq_of_cover 5 (out V c) (fun t _ => flushed V c t) cover

end Cert.KernelIdeal.Layer2

end
-- ==== Proof.SoftmaxTail.lean ====
/-
  The softmax of each row of a matrix, in the two spellings the two programs use, read at an entry (p, n): both are
  `softmaxRow` of row p — exp (u (p, n) - mx) over the sum of exp (u (p, n') - mx), mx the row's maximum from minus
  infinity.

  Lane spelling: a maximum over the lanes (axis 1) from the accumulator minus infinity, once more against a splat of
  minus infinity, recast as a column and laid along the lanes; the exponentials summed over the lanes from the
  accumulator zero, which the sum drops; recast and laid along the lanes; the quotient.

  Whole-array spelling: a reduce over axis 1 with a maximum body from minus infinity, once more against minus
  infinity, made a column and laid along axis 1; the exponentials reduced with an add body from the initial value
  zero, which adds nothing; the quotient.
-/
import proofs.«145360_j13211319403151_1_alg».proof.Proof.LayerSpec

noncomputable section

namespace Cert.GraphConv

open Idealize.ShloMosaic Idealize.ShloMosaic.ValueIdx

variable {R M : Nat}

/-! ## The reduced index with a lane put back, and the shape fact that names it -/

/-- A reduction into a rank-one shape keeps at least one axis. -/
private theorem reduces_of_reducesTo (h' : (⟨2, ![R, M]⟩ : Shape).ReducesTo [1] ⟨1, ![R]⟩) :
    (⟨2, ![R, M]⟩ : Shape).Reduces [1] ⟨1, ![R]⟩ := ⟨h'.1, Nat.one_pos, h'.2⟩

/-- The reduced index `r` with lane `k` put back is (r, k). -/
private theorem lift_ix2 (h : (⟨2, ![R, M]⟩ : Shape).Reduces [1] ⟨1, ![R]⟩) (r : Fin R)
    (k : Fin ((⟨2, ![R, M]⟩ : Shape).size 1)) : h.lift (ix1 r) k = ix2 r (⟨k.val, k.isLt⟩ : Fin M) := by
  funext c; apply Fin.ext
  fin_cases c <;> rfl

/-! ## A column laid along the lanes, in the two spellings -/

section Columns
variable {α : Type}

/-- A vector of `R` entries cast to a column, read at (r, 0), is entry `r`. -/
private theorem shapeCast_col_apply (hsc : (⟨1, ![R]⟩ : Shape).ShapeCasts ⟨2, ![R, 1]⟩)
    (z : (⟨1, ![R]⟩ : Shape).Idx → α) (r : Fin R) :
    shapeCast ⟨2, ![R, 1]⟩ z hsc (ix2 r (0 : Fin 1)) = z (ix1 r) := by
  refine shapeCast_apply z hsc (ix2 r (0 : Fin 1)) (ix1 r) ?_
  rw [Shape.rowMajor_val_two, Shape.rowMajor_val_one]
  show r.val = r.val * 1 + 0
  omega

/-- A column broadcast along `M` lanes, read at (r, n), is the column at (r, 0). -/
private theorem broadcastTo_col_apply (hbc : (⟨2, ![R, 1]⟩ : Shape).Broadcasts ⟨2, ![R, M]⟩)
    (y : (⟨2, ![R, 1]⟩ : Shape).Idx → α) (r : Fin R) (n : Fin M) :
    broadcastTo ⟨2, ![R, M]⟩ y hbc (ix2 r n) = y (ix2 r (0 : Fin 1)) := by
  refine broadcastTo_apply y hbc (ix2 r n) (ix2 r (0 : Fin 1)) ?_
  intro a
  match a with
  | ⟨0, _⟩ =>
    show r.val = if R = 1 then 0 else r.val
    split
    · have := r.isLt; omega
    · rfl
  | ⟨1, _⟩ =>
    show (0 : ℕ) = if (1 : ℕ) = 1 then 0 else n.val
    rfl

/-- A vector of `R` entries made a column by a broadcast in dimension 0, read at (r, 0), is entry `r`. -/
private theorem broadcastInDim_col_apply (hb1 : (⟨1, ![R]⟩ : Shape).BroadcastsInDim ⟨2, ![R, 1]⟩ ![0])
    (z : (⟨1, ![R]⟩ : Shape).Idx → α) (r : Fin R) :
    broadcastInDim ⟨2, ![R, 1]⟩ ![0] hb1 z (ix2 r (0 : Fin 1)) = z (ix1 r) := by
  refine broadcastInDim_apply ![0] hb1 z (ix2 r (0 : Fin 1)) (ix1 r) ?_
  intro a
  match a with
  | ⟨0, _⟩ =>
    show r.val = if R = 1 then 0 else r.val
    split
    · have := r.isLt; omega
    · rfl

/-- A column broadcast in dimensions (0, 1) along `M` entries of axis 1, read at (r, n), is the column at (r, 0). -/
private theorem broadcastInDim_lanes_apply (hb2 : (⟨2, ![R, 1]⟩ : Shape).BroadcastsInDim ⟨2, ![R, M]⟩ ![0, 1])
    (y : (⟨2, ![R, 1]⟩ : Shape).Idx → α) (r : Fin R) (n : Fin M) :
    broadcastInDim ⟨2, ![R, M]⟩ ![0, 1] hb2 y (ix2 r n) = y (ix2 r (0 : Fin 1)) := by
  refine broadcastInDim_apply ![0, 1] hb2 y (ix2 r n) (ix2 r (0 : Fin 1)) ?_
  intro a
  match a with
  | ⟨0, _⟩ =>
    show r.val = if R = 1 then 0 else r.val
    split
    · have := r.isLt; omega
    · rfl
  | ⟨1, _⟩ =>
    show (0 : ℕ) = if (1 : ℕ) = 1 then 0 else n.val
    rfl

end Columns

/-! ## The row maximum, in the two spellings -/

/-- The lane maximum from minus infinity, once more against the splat of minus infinity, at row `r`. -/
private theorem lanes_rowMax (u : FVec Ideal ⟨2, ![R, M]⟩ .f32)
    (hred : (⟨2, ![R, M]⟩ : Shape).Reduces [1] ⟨1, ![R]⟩) (hφ : FKind.Formats .f32)
    (hmax : (0xFF800000#32 : BitVec FTy.f32.bits) = FKind.maximumf.neutral .f32 hφ) (r : Fin R) :
    maximumf (broadcast ⟨1, ![R]⟩ (Scalar.ofBits (F := Ideal) .f32 0xFF800000#32))
        (multiReduction .maximumf [1] ⟨1, ![R]⟩ u 0xFF800000#32 hred hφ hmax) (ix1 r)
      = rowMax (fun n' => u (ix2 r n')) := by
  rw [maximumf_apply, Ideal.multiReduction_maximumf_single]
  have hf : (u ∘ hred.lift (ix1 r)) = fun k : Fin M => u (ix2 r k) :=
    funext fun k => congrArg u (lift_ix2 hred r k)
  exact congrArg (fun f : Fin M → EReal => max (Ideal.ofBits .f32 0xFF800000#32)
    (Finset.fold max (Ideal.ofBits .f32 0xFF800000#32) f (Finset.univ : Finset (Fin M)))) hf

/-- The reduce with a maximum body from minus infinity, once more against minus infinity, at row `p`. -/
private theorem reduce_rowMax (u : FVec Ideal ⟨2, ![R, M]⟩ .f32)
    (hred' : (⟨2, ![R, M]⟩ : Shape).ReducesTo [1] ⟨1, ![R]⟩) (hu : 0 < (⟨0, ![]⟩ : Shape).numel)
    (hb0 : (⟨0, ![]⟩ : Shape).BroadcastsInDim ⟨1, ![R]⟩ ![]) (p : Fin R) :
    maximumf (broadcastInDim ⟨1, ![R]⟩ ![] hb0 (constant (F := Ideal) ⟨0, ![]⟩ .f32 0xFF800000#32))
        (Host.reduce FloatOps.maximumf u (constant (F := Ideal) ⟨0, ![]⟩ .f32 0xFF800000#32) hred' hu) (ix1 p)
      = rowMax (fun n' => u (ix2 p n')) := by
  have hred := reduces_of_reducesTo hred'
  rw [maximumf_apply, Host.reduce_eq_fold_single FloatOps.maximumf u _ hred' hred hu]
  have hf : (u ∘ hred.lift (ix1 p)) = fun k : Fin M => u (ix2 p k) :=
    funext fun k => congrArg u (lift_ix2 hred p k)
  exact congrArg (fun f : Fin M → EReal => max (Ideal.ofBits .f32 0xFF800000#32)
    (Finset.fold max (Ideal.ofBits .f32 0xFF800000#32) f (Finset.univ : Finset (Fin M)))) hf

/-- The lane spelling of a row softmax, at entry (r, n). -/
theorem softmax_lanes_apply (u : FVec Ideal ⟨2, ![R, M]⟩ .f32)
    (hred : (⟨2, ![R, M]⟩ : Shape).Reduces [1] ⟨1, ![R]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : (⟨1, ![R]⟩ : Shape).ShapeCasts ⟨2, ![R, 1]⟩) (hbc : (⟨2, ![R, 1]⟩ : Shape).Broadcasts ⟨2, ![R, M]⟩)
    (r : Fin R) (n : Fin M) :
    divf
      (exp (subf u (broadcastTo ⟨2, ![R, M]⟩ (shapeCast ⟨2, ![R, 1]⟩
        (maximumf (broadcast ⟨1, ![R]⟩ (Scalar.ofBits (F := Ideal) .f32 0xFF800000#32))
          (multiReduction .maximumf [1] ⟨1, ![R]⟩ u 0xFF800000#32 hred hφ hmax)) hsc) hbc)))
      (broadcastTo ⟨2, ![R, M]⟩ (shapeCast ⟨2, ![R, 1]⟩
        (multiReduction .add [1] ⟨1, ![R]⟩
          (exp (subf u (broadcastTo ⟨2, ![R, M]⟩ (shapeCast ⟨2, ![R, 1]⟩
            (maximumf (broadcast ⟨1, ![R]⟩ (Scalar.ofBits (F := Ideal) .f32 0xFF800000#32))
              (multiReduction .maximumf [1] ⟨1, ![R]⟩ u 0xFF800000#32 hred hφ hmax)) hsc) hbc)))
          0x00000000#32 hred hφ hadd) hsc) hbc) (ix2 r n)
      = softmaxRow (fun n' => u (ix2 r n')) n := by
  -- the exponentials at (r, n')
  have hexp : ∀ n' : Fin M,
      exp (subf u (broadcastTo ⟨2, ![R, M]⟩ (shapeCast ⟨2, ![R, 1]⟩
        (maximumf (broadcast ⟨1, ![R]⟩ (Scalar.ofBits (F := Ideal) .f32 0xFF800000#32))
          (multiReduction .maximumf [1] ⟨1, ![R]⟩ u 0xFF800000#32 hred hφ hmax)) hsc) hbc)) (ix2 r n')
        = Ideal.exp (u (ix2 r n') - rowMax (fun n'' => u (ix2 r n''))) := by
    intro n'
    show Ideal.exp (u (ix2 r n') - broadcastTo ⟨2, ![R, M]⟩ (shapeCast ⟨2, ![R, 1]⟩
        (maximumf (broadcast ⟨1, ![R]⟩ (Scalar.ofBits (F := Ideal) .f32 0xFF800000#32))
          (multiReduction .maximumf [1] ⟨1, ![R]⟩ u 0xFF800000#32 hred hφ hmax)) hsc) hbc (ix2 r n')) = _
    rw [broadcastTo_col_apply, shapeCast_col_apply, lanes_rowMax]
  rw [divf_apply, hexp, broadcastTo_col_apply, shapeCast_col_apply, Ideal.multiReduction_add_single]
  unfold softmaxRow
  refine congrArg (Ideal.div _) ?_
  show ∑ k : Fin M, _ = _
  refine Finset.sum_congr rfl fun k _ => ?_
  rw [lift_ix2 hred r k]
  exact hexp k

/-- The whole-array spelling of a row softmax, at entry (p, n). -/
theorem softmax_reduce_apply (u : FVec Ideal ⟨2, ![R, M]⟩ .f32)
    (hred' : (⟨2, ![R, M]⟩ : Shape).ReducesTo [1] ⟨1, ![R]⟩) (hu : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, M]⟩ ![0, 1]) (p : Fin R) (n : Fin M) :
    Host.divf
      (Host.exp (subf u (broadcastInDim ⟨2, ![R, M]⟩ ![0, 1] hb2 (broadcastInDim ⟨2, ![R, 1]⟩ ![0] hb1
        (maximumf (broadcastInDim ⟨1, ![R]⟩ ![] hb0 (constant (F := Ideal) ⟨0, ![]⟩ .f32 0xFF800000#32))
          (Host.reduce FloatOps.maximumf u (constant (F := Ideal) ⟨0, ![]⟩ .f32 0xFF800000#32) hred' hu))))))
      (broadcastInDim ⟨2, ![R, M]⟩ ![0, 1] hb2 (broadcastInDim ⟨2, ![R, 1]⟩ ![0] hb1
        (Host.reduceAdd
          (Host.exp (subf u (broadcastInDim ⟨2, ![R, M]⟩ ![0, 1] hb2 (broadcastInDim ⟨2, ![R, 1]⟩ ![0] hb1
            (maximumf (broadcastInDim ⟨1, ![R]⟩ ![] hb0 (constant (F := Ideal) ⟨0, ![]⟩ .f32 0xFF800000#32))
              (Host.reduce FloatOps.maximumf u (constant (F := Ideal) ⟨0, ![]⟩ .f32 0xFF800000#32) hred' hu))))))
          (constant (F := Ideal) ⟨0, ![]⟩ .f32 0x00000000#32) hred' hu))) (ix2 p n)
      = softmaxRow (fun n' => u (ix2 p n')) n := by
  have hred := reduces_of_reducesTo hred'
  -- the exponentials at (p, n')
  have hexp : ∀ n' : Fin M,
      Host.exp (subf u (broadcastInDim ⟨2, ![R, M]⟩ ![0, 1] hb2 (broadcastInDim ⟨2, ![R, 1]⟩ ![0] hb1
        (maximumf (broadcastInDim ⟨1, ![R]⟩ ![] hb0 (constant (F := Ideal) ⟨0, ![]⟩ .f32 0xFF800000#32))
          (Host.reduce FloatOps.maximumf u (constant (F := Ideal) ⟨0, ![]⟩ .f32 0xFF800000#32) hred' hu))))) (ix2 p n')
        = Ideal.exp (u (ix2 p n') - rowMax (fun n'' => u (ix2 p n''))) := by
    intro n'
    show Ideal.exp (u (ix2 p n') - broadcastInDim ⟨2, ![R, M]⟩ ![0, 1] hb2 (broadcastInDim ⟨2, ![R, 1]⟩ ![0] hb1
        (maximumf (broadcastInDim ⟨1, ![R]⟩ ![] hb0 (constant (F := Ideal) ⟨0, ![]⟩ .f32 0xFF800000#32))
          (Host.reduce FloatOps.maximumf u (constant (F := Ideal) ⟨0, ![]⟩ .f32 0xFF800000#32) hred' hu))) (ix2 p n')) = _
    rw [broadcastInDim_lanes_apply, broadcastInDim_col_apply, reduce_rowMax]
  show Ideal.div _ _ = _
  rw [hexp, broadcastInDim_lanes_apply, broadcastInDim_col_apply]
  unfold softmaxRow
  refine congrArg (Ideal.div _) ?_
  show Ideal.hostReduceAdd hred' _ _ (ix1 p) = _
  rw [Ideal.hostReduceAdd_single hred' hred]
  show Ideal.ofBits .f32 0x00000000#32 + ∑ k : Fin M, _ = _
  rw [Ideal.ofBits_zero_f32, zero_add]
  refine Finset.sum_congr rfl fun k _ => ?_
  rw [lift_ix2 hred p k]
  exact hexp k

end Cert.GraphConv

end
-- ==== Proof.Layer3Value.lean ====
/-
  The last layer's row blocks. Grid point t of the third region works on rows 10000 t .. 10000 t + 9999: it reads
  that block of rows of the neighbourhood sums and of the second hidden layer, the two weight matrices and the bias
  row whole, and writes back, for each of those rows, the softmax of the row's two affine values. A row's softmax
  reads that row only, so what point t writes back is block t of `softmaxOut` of the arrays as the region finds
  them, and the ten blocks tile the result array.
-/
import proofs.«145360_j13211319403151_1_alg».proof.Proof.Gen.KernelIdeal.Frame
import proofs.«145360_j13211319403151_1_alg».proof.Proof.LayerSpec
import proofs.«145360_j13211319403151_1_alg».proof.Proof.SoftmaxTail
import Idealize.ShloMosaic.Lib.Pipeline.Value

set_option maxRecDepth 16384

noncomputable section

namespace Cert.KernelIdeal.Layer3

open Cert.KernelIdeal Cert.KernelIdeal.Gen Cert.GraphConv
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at row r of the block, feature n: the softmax of the row's affine values. -/
theorem pay (a x : Vec Ideal S10000x16 .f32) (wr wo : Vec Ideal S16x2 .f32) (b2 : Vec Ideal S1x2 .f32)
    (r : Fin 10000) (n : Fin 2) :
    k2_pay1 (F := Ideal) a x wr wo b2 (ix2 r n)
      = softmaxRow (lin (N := 10000) (K := 16) (M := 2) a x wr wo (fun n' => b2 (ix2 (0 : Fin 1) n')) r) n := by
  unfold k2_pay1
  simp only [shapeCast_self]
  exact (softmax_lanes_apply (R := 10000) (M := 2)
    (addf (addf (matmul dot_S10000x16_S16x2_S10000x2_1_0_0_1_n_n none (truncf .bf16 a bitsLt_bf16_f32)
        (truncf .bf16 wr bitsLt_bf16_f32) (constant S10000x2 .f32 0x00000000#32))
      (matmul dot_S10000x16_S16x2_S10000x2_1_0_0_1_n_n none (truncf .bf16 x bitsLt_bf16_f32)
        (truncf .bf16 wo bitsLt_bf16_f32) (constant S10000x2 .f32 0x00000000#32)))
      (broadcastTo S10000x2 b2 broadcasts_S1x2_S10000x2))
    reduces_S10000x2_S10000 (.inl rfl) rfl rfl shapeCasts_S10000_S10000x1 broadcasts_S10000x1_S10000x2 r n).trans
    (congrArg (fun h => softmaxRow h n) (funext fun n' =>
      affine_acc_apply dot_S10000x16_S16x2_S10000x2_1_0_0_1_n_n rfl rfl rfl rfl rfl rfl a x wr wo b2 _ _ r n'))

/-- The result array of the layer as one function of the arrays the region finds. -/
abbrev out (c : Dev nD) : FVec Ideal ⟨2, ![100000, 2]⟩ .f32 :=
  softmaxOut (N := 100000) (K := 16) (M := 2) (V c main_v37) (V c main_v27) (V c main_arg8) (V c main_arg9)
    (fun n => V c main_v38 (ix2 (0 : Fin 1) n))

/-- The stored value at an index j of the block is the layer's value at the array index i, when row j 0 of the two
    node blocks is row i 0 of the node arrays, the other blocks are their arrays, and the features agree. -/
theorem point_eq (ablk xblk : Vec Ideal S10000x16 .f32) (wrb wob : Vec Ideal S16x2 .f32) (bb : Vec Ideal S1x2 .f32)
    (agg x : FVec Ideal ⟨2, ![100000, 16]⟩ .f32) (wr wo : FVec Ideal ⟨2, ![16, 2]⟩ .f32) (b : Fin 2 → EReal)
    (j : S10000x2.Idx) (i : S100000x2.Idx)
    (ha : ∀ k : Fin 16, ablk (ix2 (j 0) k) = agg (ix2 (i 0) k)) (hx : ∀ k : Fin 16, xblk (ix2 (j 0) k) = x (ix2 (i 0) k))
    (hr : ∀ (k : Fin 16) (n : Fin 2), wrb (ix2 k n) = wr (ix2 k n)) (ho : ∀ (k : Fin 16) (n : Fin 2), wob (ix2 k n) = wo (ix2 k n))
    (hb : ∀ n : Fin 2, bb (ix2 (0 : Fin 1) n) = b n) (h1 : (j 1).val = (i 1).val) :
    k2_pay1 (F := Ideal) ablk xblk wrb wob bb j = softmaxOut (N := 100000) (K := 16) (M := 2) agg x wr wo b i := by
  obtain ⟨r, n, rfl⟩ : ∃ (r : Fin 10000) (n : Fin 2), j = ix2 r n := ⟨j 0, j 1, eq_ix2 j⟩
  rw [pay]
  unfold softmaxOut
  have e1 : (i 1 : Fin 2) = n := Fin.ext h1.symm
  rw [lin_congr ablk xblk agg x wrb wob wr wo (fun n' => bb (ix2 (0 : Fin 1) n')) b r (i 0) ha hx hr ho hb, e1]

theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer's result. -/
theorem flushed (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S10000x16) hz, View.ld_unit_zero (S := S16x2) hz, View.ld_unit_zero (S := S1x2) hz]
  funext j
  show k2_pay1 (F := Ideal) (iblk2 V c 0 t) (iblk2 V c 1 t) (iblk2 V c 2 t) (iblk2 V c 3 t) (iblk2 V c 4 t) j
    = out V c (((cfg2.win 5).blk t).view.emb j)
  obtain ⟨e00, e01, e10, e11, e20, e21, e30, e31, e40, e41, e50, e51⟩ := idx_facts t
  refine point_eq (iblk2 V c 0 t) (iblk2 V c 1 t) (iblk2 V c 2 t) (iblk2 V c 3 t) (iblk2 V c 4 t)
    (V c main_v37) (V c main_v27) (V c main_arg8) (V c main_arg9) (fun n => V c main_v38 (ix2 (0 : Fin 1) n))
    j (((cfg2.win 5).blk t).view.emb j) ?_ ?_ ?_ ?_ ?_ ?_
  · intro k
    show V c main_v37 (((cfg2.win 0).blk t).view.emb (ix2 (j 0) k))
      = V c main_v37 (ix2 ((((cfg2.win 5).blk t).view.emb j) 0) k)
    refine congrArg (V c main_v37) (funext fun a => Fin.ext ?_)
    match a with
    | ⟨0, _⟩ =>
      show win2_0.index t (0 : Fin 2) * 10000 + 1 * (j 0).val = win2_5.index t (0 : Fin 2) * 10000 + 1 * (j 0).val
      omega
    | ⟨1, _⟩ =>
      show win2_0.index t (1 : Fin 2) * 16 + 1 * k.val = k.val
      omega
  · intro k
    show V c main_v27 (((cfg2.win 1).blk t).view.emb (ix2 (j 0) k))
      = V c main_v27 (ix2 ((((cfg2.win 5).blk t).view.emb j) 0) k)
    refine congrArg (V c main_v27) (funext fun a => Fin.ext ?_)
    match a with
    | ⟨0, _⟩ =>
      show win2_1.index t (0 : Fin 2) * 10000 + 1 * (j 0).val = win2_5.index t (0 : Fin 2) * 10000 + 1 * (j 0).val
      omega
    | ⟨1, _⟩ =>
      show win2_1.index t (1 : Fin 2) * 16 + 1 * k.val = k.val
      omega
  · intro k n
    show V c main_arg8 (((cfg2.win 2).blk t).view.emb (ix2 k n)) = V c main_arg8 (ix2 k n)
    refine congrArg (V c main_arg8) (funext fun a => Fin.ext ?_)
    match a with
    | ⟨0, _⟩ =>
      show win2_2.index t (0 : Fin 2) * 16 + 1 * k.val = k.val
      omega
    | ⟨1, _⟩ =>
      show win2_2.index t (1 : Fin 2) * 2 + 1 * n.val = n.val
      omega
  · intro k n
    show V c main_arg9 (((cfg2.win 3).blk t).view.emb (ix2 k n)) = V c main_arg9 (ix2 k n)
    refine congrArg (V c main_arg9) (funext fun a => Fin.ext ?_)
    match a with
    | ⟨0, _⟩ =>
      show win2_3.index t (0 : Fin 2) * 16 + 1 * k.val = k.val
      omega
    | ⟨1, _⟩ =>
      show win2_3.index t (1 : Fin 2) * 2 + 1 * n.val = n.val
      omega
  · intro n
    show V c main_v38 (((cfg2.win 4).blk t).view.emb (ix2 (0 : Fin 1) n)) = V c main_v38 (ix2 (0 : Fin 1) n)
    refine congrArg (V c main_v38) (funext fun a => Fin.ext ?_)
    match a with
    | ⟨0, _⟩ =>
      show win2_4.index t (0 : Fin 2) * 1 + 1 * 0 = 0
      omega
    | ⟨1, _⟩ =>
      show win2_4.index t (1 : Fin 2) * 2 + 1 * n.val = n.val
      omega
  · show (j 1).val = win2_5.index t (1 : Fin 2) * 2 + 1 * (j 1).val
    omega

/-- An index of the result array is in point t's block iff each coordinate is in the block's range on its axis. -/
theorem mem_blk (t : Fin cfg2.N) (i : S100000x2.Idx) :
    i ∈ ((cfg2.win 5).blk t).view.set ↔ ∀ a : Fin 2, win2_5.index t a * S10000x2.size a ≤ (i a).val
      ∧ (i a).val < win2_5.index t a * S10000x2.size a + S10000x2.size a := by
  show i ∈ ((View.whole main_v39).slice (win2_5.rect t)).set ↔ _
  rw [View.set_slice_whole, Rect.mem_set_unit]
  exact Iff.rfl

/-- Row i 0 of the result lies in the block of point (i 0) / 10000: the ten blocks tile the array. -/
theorem cover (i : S100000x2.Idx) :
    ∃ t : Fin cfg2.N, (cfg2.win 5).flush t = true ∧ i ∈ ((cfg2.win 5).blk t).view.set := by
  have hi0 : (i 0).val < 100000 := (i 0).isLt
  have hi1 : (i 1).val < 2 := (i 1).isLt
  have hN : cfg2.N = 10 := rfl
  have ht : (i 0).val / 10000 < cfg2.N := by rw [hN]; omega
  refine ⟨⟨(i 0).val / 10000, ht⟩, flush2_5 _, ?_⟩
  rw [mem_blk]
  obtain ⟨-, -, -, -, -, -, -, -, -, -, e50, e51⟩ := idx_facts ⟨(i 0).val / 10000, ht⟩
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win2_5.index ⟨(i 0).val / 10000, ht⟩ (1 : Fin 2) * 2 ≤ (i 1).val
      ∧ (i 1).val < win2_5.index ⟨(i 0).val / 10000, ht⟩ (1 : Fin 2) * 2 + 2
    rw [e51]
    omega

/-- The layer's result array after the region: `softmaxOut` of the arrays the region finds. -/
theorem final (c : Dev nD) : (dat2 V c).arrAt 5 cfg2.N = out V c :=
  (dat2 V c).arrAt_eq_of_cover 5 (out V c) (fun t _ => flushed V c t) cover

end Cert.KernelIdeal.Layer3

end
-- ==== Proof.Boundary.lean ====
/-
  The arrays at the boundaries between the host stretches and the three regions, each as a function of the launch
  arguments. The edge list's two rows (source and target node of each edge) are cut out once and never written again.
  Each layer's neighbourhood sum is the scatter-add, by target node, of the rows gathered by (once wrapped) source
  node: it is carried here as ONE function of the node array and the two index rows and never opened. With H1, H2 the
  two hidden layers and H3 the softmax layer, each the layer function of the neighbourhood sum of the layer before and
  of that layer itself, the result buffer ends holding H3.
-/
import proofs.«145360_j13211319403151_1_alg».proof.Proof.Gen.KernelIdeal.Frame
import proofs.«145360_j13211319403151_1_alg».proof.Proof.Layer1Value
import proofs.«145360_j13211319403151_1_alg».proof.Proof.Layer2Value
import proofs.«145360_j13211319403151_1_alg».proof.Proof.Layer3Value
import Idealize.ShloMosaic.Lib.StableHlo.Run
import Idealize.ShloMosaic.Lib.ValueLayout

set_option maxRecDepth 16384

noncomputable section

namespace Cert.KernelIdeal.Boundary

open Cert.KernelIdeal Cert.KernelIdeal.Gen Cert.GraphConv
open Idealize.ShloMosaic Idealize.ShloMosaic.ValueIdx Idealize.ShloMosaic.TcCoe Idealize.SL.Sem Idealize.ShloMosaic.StableHlo

/-! ## The shared host chains, as functions -/

/-- Row 0 of the edge list: each edge's source node. -/
def srcRow (e : IVec S2x1600000 32) : IVec S1600000 32 :=
  shapeCast S1600000 (extractStridedSlice S1x1600000 ![0, 0] e slices_S2x1600000_S1x1600000_0_0) shapeCasts_S1x1600000_S1600000

/-- Row 1 of the edge list: each edge's target node. -/
def dstRow (e : IVec S2x1600000 32) : IVec S1600000 32 :=
  shapeCast S1600000 (extractStridedSlice S1x1600000 ![1, 0] e slices_S2x1600000_S1x1600000_1_0) shapeCasts_S1x1600000_S1600000

/-- The source indices as the gather takes them: a negative index moved up by the node count, as a column. -/
def gatherIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The neighbourhood sums of a 64-wide node array. -/
def nbr64 (x : FVec Ideal S100000x64 .f32) (s d : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 x (gatherIdx s))

/-- The neighbourhood sums of a 32-wide node array. -/
def nbr32 (x : FVec Ideal S100000x32 .f32) (s d : IVec S1600000 32) : FVec Ideal S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (Host.gather gather_S100000x32_S1600000x1_S1600000x32_1_0_n_n_0_1_132 x (gatherIdx s))

/-- The neighbourhood sums of a 16-wide node array. -/
def nbr16 (x : FVec Ideal S100000x16 .f32) (s d : IVec S1600000 32) : FVec Ideal S100000x16 .f32 :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 d)
    (Host.gather gather_S100000x16_S1600000x1_S1600000x16_1_0_n_n_0_1_116 x (gatherIdx s))

/-! ## The three layers as functions of the arguments -/

/-- The first hidden layer. -/
def H1 (z : FVec Ideal S100000x64 .f32) (e : IVec S2x1600000 32) (wr wo : FVec Ideal S64x32 .f32) (b : FVec Ideal S32 .f32) :
    FVec Ideal S100000x32 .f32 :=
  reluOut (N := 100000) (K := 64) (M := 32) (nbr64 z (srcRow e) (dstRow e)) z wr wo (fun n => b (ix1 n))

/-- The second hidden layer, of the first. -/
def H2 (h : FVec Ideal S100000x32 .f32) (e : IVec S2x1600000 32) (wr wo : FVec Ideal S32x16 .f32) (b : FVec Ideal S16 .f32) :
    FVec Ideal S100000x16 .f32 :=
  reluOut (N := 100000) (K := 32) (M := 16) (nbr32 h (srcRow e) (dstRow e)) h wr wo (fun n => b (ix1 n))

/-- The softmax layer, of the second hidden layer. -/
def H3 (h : FVec Ideal S100000x16 .f32) (e : IVec S2x1600000 32) (wr wo : FVec Ideal S16x2 .f32) (b : FVec Ideal S2 .f32) :
    FVec Ideal S100000x2 .f32 :=
  softmaxOut (N := 100000) (K := 16) (M := 2) (nbr16 h (srcRow e) (dstRow e)) h wr wo (fun n => b (ix1 n))

variable (m : (ℓ : Loc nD τ sig) → Buf (Elt Ideal) ℓ) (ρ : Dev nD → PrngReg) (c : Dev nD)

/-- The first hidden layer of the launch arguments. -/
abbrev h1 : FVec Ideal S100000x32 .f32 := H1 (m ((c : Thread nD τ).loc main_arg0)) (m ((c : Thread nD τ).loc main_arg1)) (m ((c : Thread nD τ).loc main_arg2)) (m ((c : Thread nD τ).loc main_arg3)) (m ((c : Thread nD τ).loc main_arg4))
/-- The second hidden layer of the launch arguments. -/
abbrev h2 : FVec Ideal S100000x16 .f32 := H2 (h1 m c) (m ((c : Thread nD τ).loc main_arg1)) (m ((c : Thread nD τ).loc main_arg5)) (m ((c : Thread nD τ).loc main_arg6)) (m ((c : Thread nD τ).loc main_arg7))
/-- The result of the launch arguments. -/
abbrev h3 : FVec Ideal S100000x2 .f32 := H3 (h2 m c) (m ((c : Thread nD τ).loc main_arg1)) (m ((c : Thread nD τ).loc main_arg8)) (m ((c : Thread nD τ).loc main_arg9)) (m ((c : Thread nD τ).loc main_arg10))

/-! ## After the first host stretch -/

theorem W1_v1 : W1 m ρ c (Proc.devRef .tc main_v1) = srcRow (m ((c : Thread nD τ).loc main_arg1)) := by
  show StableHlo.after hostOps0 (W0 m ρ c) (Proc.devRef .tc main_v1) = _
  after_results
  rfl
theorem W1_v3 : W1 m ρ c (Proc.devRef .tc main_v3) = dstRow (m ((c : Thread nD τ).loc main_arg1)) := by
  show StableHlo.after hostOps0 (W0 m ρ c) (Proc.devRef .tc main_v3) = _
  after_results
  rfl
theorem W1_v13 : W1 m ρ c (Proc.devRef .tc main_v13) = nbr64 (m ((c : Thread nD τ).loc main_arg0)) (srcRow (m ((c : Thread nD τ).loc main_arg1))) (dstRow (m ((c : Thread nD τ).loc main_arg1))) := by
  show StableHlo.after hostOps0 (W0 m ρ c) (Proc.devRef .tc main_v13) = _
  after_results
  rfl
theorem W1_v14 : W1 m ρ c (Proc.devRef .tc main_v14) = shapeCast S1x32 (m ((c : Thread nD τ).loc main_arg4)) shapeCasts_S32_S1x32 := by
  show StableHlo.after hostOps0 (W0 m ρ c) (Proc.devRef .tc main_v14) = _
  after_results
  rfl
theorem W1_arg0 : W1 m ρ c (Proc.devRef .tc main_arg0) = (m ((c : Thread nD τ).loc main_arg0)) := by
  show StableHlo.after hostOps0 (W0 m ρ c) (Proc.devRef .tc main_arg0) = _
  after_results
theorem W1_arg2 : W1 m ρ c (Proc.devRef .tc main_arg2) = (m ((c : Thread nD τ).loc main_arg2)) := by
  show StableHlo.after hostOps0 (W0 m ρ c) (Proc.devRef .tc main_arg2) = _
  after_results
theorem W1_arg3 : W1 m ρ c (Proc.devRef .tc main_arg3) = (m ((c : Thread nD τ).loc main_arg3)) := by
  show StableHlo.after hostOps0 (W0 m ρ c) (Proc.devRef .tc main_arg3) = _
  after_results
theorem W1_arg5 : W1 m ρ c (Proc.devRef .tc main_arg5) = (m ((c : Thread nD τ).loc main_arg5)) := by
  show StableHlo.after hostOps0 (W0 m ρ c) (Proc.devRef .tc main_arg5) = _
  after_results
theorem W1_arg6 : W1 m ρ c (Proc.devRef .tc main_arg6) = (m ((c : Thread nD τ).loc main_arg6)) := by
  show StableHlo.after hostOps0 (W0 m ρ c) (Proc.devRef .tc main_arg6) = _
  after_results
theorem W1_arg7 : W1 m ρ c (Proc.devRef .tc main_arg7) = (m ((c : Thread nD τ).loc main_arg7)) := by
  show StableHlo.after hostOps0 (W0 m ρ c) (Proc.devRef .tc main_arg7) = _
  after_results
theorem W1_arg8 : W1 m ρ c (Proc.devRef .tc main_arg8) = (m ((c : Thread nD τ).loc main_arg8)) := by
  show StableHlo.after hostOps0 (W0 m ρ c) (Proc.devRef .tc main_arg8) = _
  after_results
theorem W1_arg9 : W1 m ρ c (Proc.devRef .tc main_arg9) = (m ((c : Thread nD τ).loc main_arg9)) := by
  show StableHlo.after hostOps0 (W0 m ρ c) (Proc.devRef .tc main_arg9) = _
  after_results
theorem W1_arg10 : W1 m ρ c (Proc.devRef .tc main_arg10) = (m ((c : Thread nD τ).loc main_arg10)) := by
  show StableHlo.after hostOps0 (W0 m ρ c) (Proc.devRef .tc main_arg10) = _
  after_results

/-! ## After the first region -/

theorem W2_v15 : W2 m ρ c (Proc.devRef .tc main_v15) = h1 m c := by
  refine (W2_arr m ρ c 5).trans ((Layer1.final (V1 m ρ) c).trans ?_)
  show reluOut (N := 100000) (K := 64) (M := 32) (W1 m ρ c (Proc.devRef .tc main_v13)) (W1 m ρ c (Proc.devRef .tc main_arg0))
    (W1 m ρ c (Proc.devRef .tc main_arg2)) (W1 m ρ c (Proc.devRef .tc main_arg3)) (fun n => W1 m ρ c (Proc.devRef .tc main_v14) (ix2 (0 : Fin 1) n)) = _
  rw [W1_v13, W1_arg0, W1_arg2, W1_arg3, W1_v14]
  unfold h1 H1
  refine congrArg _ (funext fun n => ?_)
  exact shapeCast_a_1a_apply _ _ 0 n
theorem W2_v1 : W2 m ρ c (Proc.devRef .tc main_v1) = srcRow (m ((c : Thread nD τ).loc main_arg1)) := (W2_of_ne m ρ c main_v1 (by decide)).trans (W1_v1 m ρ c)
theorem W2_v3 : W2 m ρ c (Proc.devRef .tc main_v3) = dstRow (m ((c : Thread nD τ).loc main_arg1)) := (W2_of_ne m ρ c main_v3 (by decide)).trans (W1_v3 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)
theorem W2_arg9 : W2 m ρ c (Proc.devRef .tc main_arg9) = (m ((c : Thread nD τ).loc main_arg9)) := (W2_of_ne m ρ c main_arg9 (by decide)).trans (W1_arg9 m ρ c)
theorem W2_arg10 : W2 m ρ c (Proc.devRef .tc main_arg10) = (m ((c : Thread nD τ).loc main_arg10)) := (W2_of_ne m ρ c main_arg10 (by decide)).trans (W1_arg10 m ρ c)

/-! ## After the second host stretch -/

theorem W3_v25 : W3 m ρ c (Proc.devRef .tc main_v25) = nbr32 (h1 m c) (srcRow (m ((c : Thread nD τ).loc main_arg1))) (dstRow (m ((c : Thread nD τ).loc main_arg1))) := by
  have e : W3 m ρ c (Proc.devRef .tc main_v25)
      = nbr32 (W2 m ρ c (Proc.devRef .tc main_v15)) (W2 m ρ c (Proc.devRef .tc main_v1)) (W2 m ρ c (Proc.devRef .tc main_v3)) := by
    show StableHlo.after hostOps1 (W2 m ρ c) (Proc.devRef .tc main_v25) = _
    after_results
    rfl
  rw [e, W2_v15, W2_v1, W2_v3]
theorem W3_v15 : W3 m ρ c (Proc.devRef .tc main_v15) = h1 m c := by
  have e : W3 m ρ c (Proc.devRef .tc main_v15) = W2 m ρ c (Proc.devRef .tc main_v15) := by
    show StableHlo.after hostOps1 (W2 m ρ c) (Proc.devRef .tc main_v15) = _
    after_results
  rw [e, W2_v15]
theorem W3_v26 : W3 m ρ c (Proc.devRef .tc main_v26) = shapeCast S1x16 (m ((c : Thread nD τ).loc main_arg7)) shapeCasts_S16_S1x16 := by
  have e : W3 m ρ c (Proc.devRef .tc main_v26) = shapeCast S1x16 (W2 m ρ c (Proc.devRef .tc main_arg7)) shapeCasts_S16_S1x16 := by
    show StableHlo.after hostOps1 (W2 m ρ c) (Proc.devRef .tc main_v26) = _
    after_results
    rfl
  rw [e, W2_arg7]
theorem W3_v1 : W3 m ρ c (Proc.devRef .tc main_v1) = srcRow (m ((c : Thread nD τ).loc main_arg1)) := by
  have e : W3 m ρ c (Proc.devRef .tc main_v1) = W2 m ρ c (Proc.devRef .tc main_v1) := by
    show StableHlo.after hostOps1 (W2 m ρ c) (Proc.devRef .tc main_v1) = _
    after_results
  rw [e, W2_v1]
theorem W3_v3 : W3 m ρ c (Proc.devRef .tc main_v3) = dstRow (m ((c : Thread nD τ).loc main_arg1)) := by
  have e : W3 m ρ c (Proc.devRef .tc main_v3) = W2 m ρ c (Proc.devRef .tc main_v3) := by
    show StableHlo.after hostOps1 (W2 m ρ c) (Proc.devRef .tc main_v3) = _
    after_results
  rw [e, W2_v3]
theorem W3_arg5 : W3 m ρ c (Proc.devRef .tc main_arg5) = (m ((c : Thread nD τ).loc main_arg5)) := by
  have e : W3 m ρ c (Proc.devRef .tc main_arg5) = W2 m ρ c (Proc.devRef .tc main_arg5) := by
    show StableHlo.after hostOps1 (W2 m ρ c) (Proc.devRef .tc main_arg5) = _
    after_results
  rw [e, W2_arg5]
theorem W3_arg6 : W3 m ρ c (Proc.devRef .tc main_arg6) = (m ((c : Thread nD τ).loc main_arg6)) := by
  have e : W3 m ρ c (Proc.devRef .tc main_arg6) = W2 m ρ c (Proc.devRef .tc main_arg6) := by
    show StableHlo.after hostOps1 (W2 m ρ c) (Proc.devRef .tc main_arg6) = _
    after_results
  rw [e, W2_arg6]
theorem W3_arg8 : W3 m ρ c (Proc.devRef .tc main_arg8) = (m ((c : Thread nD τ).loc main_arg8)) := by
  have e : W3 m ρ c (Proc.devRef .tc main_arg8) = W2 m ρ c (Proc.devRef .tc main_arg8) := by
    show StableHlo.after hostOps1 (W2 m ρ c) (Proc.devRef .tc main_arg8) = _
    after_results
  rw [e, W2_arg8]
theorem W3_arg9 : W3 m ρ c (Proc.devRef .tc main_arg9) = (m ((c : Thread nD τ).loc main_arg9)) := by
  have e : W3 m ρ c (Proc.devRef .tc main_arg9) = W2 m ρ c (Proc.devRef .tc main_arg9) := by
    show StableHlo.after hostOps1 (W2 m ρ c) (Proc.devRef .tc main_arg9) = _
    after_results
  rw [e, W2_arg9]
theorem W3_arg10 : W3 m ρ c (Proc.devRef .tc main_arg10) = (m ((c : Thread nD τ).loc main_arg10)) := by
  have e : W3 m ρ c (Proc.devRef .tc main_arg10) = W2 m ρ c (Proc.devRef .tc main_arg10) := by
    show StableHlo.after hostOps1 (W2 m ρ c) (Proc.devRef .tc main_arg10) = _
    after_results
  rw [e, W2_arg10]

/-! ## After the second region -/

theorem W4_v27 : W4 m ρ c (Proc.devRef .tc main_v27) = h2 m c := by
  refine (W4_arr m ρ c 5).trans ((Layer2.final (V3 m ρ) c).trans ?_)
  show reluOut (N := 100000) (K := 32) (M := 16) (W3 m ρ c (Proc.devRef .tc main_v25)) (W3 m ρ c (Proc.devRef .tc main_v15))
    (W3 m ρ c (Proc.devRef .tc main_arg5)) (W3 m ρ c (Proc.devRef .tc main_arg6)) (fun n => W3 m ρ c (Proc.devRef .tc main_v26) (ix2 (0 : Fin 1) n)) = _
  rw [W3_v25, W3_v15, W3_arg5, W3_arg6, W3_v26]
  unfold h2 H2
  refine congrArg _ (funext fun n => ?_)
  exact shapeCast_a_1a_apply _ _ 0 n
theorem W4_v1 : W4 m ρ c (Proc.devRef .tc main_v1) = srcRow (m ((c : Thread nD τ).loc main_arg1)) := (W4_of_ne m ρ c main_v1 (by decide)).trans (W3_v1 m ρ c)
theorem W4_v3 : W4 m ρ c (Proc.devRef .tc main_v3) = dstRow (m ((c : Thread nD τ).loc main_arg1)) := (W4_of_ne m ρ c main_v3 (by decide)).trans (W3_v3 m ρ c)
theorem W4_arg8 : W4 m ρ c (Proc.devRef .tc main_arg8) = (m ((c : Thread nD τ).loc main_arg8)) := (W4_of_ne m ρ c main_arg8 (by decide)).trans (W3_arg8 m ρ c)
theorem W4_arg9 : W4 m ρ c (Proc.devRef .tc main_arg9) = (m ((c : Thread nD τ).loc main_arg9)) := (W4_of_ne m ρ c main_arg9 (by decide)).trans (W3_arg9 m ρ c)
theorem W4_arg10 : W4 m ρ c (Proc.devRef .tc main_arg10) = (m ((c : Thread nD τ).loc main_arg10)) := (W4_of_ne m ρ c main_arg10 (by decide)).trans (W3_arg10 m ρ c)

/-! ## After the third host stretch -/

theorem W5_v37 : W5 m ρ c (Proc.devRef .tc main_v37) = nbr16 (h2 m c) (srcRow (m ((c : Thread nD τ).loc main_arg1))) (dstRow (m ((c : Thread nD τ).loc main_arg1))) := by
  have e : W5 m ρ c (Proc.devRef .tc main_v37)
      = nbr16 (W4 m ρ c (Proc.devRef .tc main_v27)) (W4 m ρ c (Proc.devRef .tc main_v1)) (W4 m ρ c (Proc.devRef .tc main_v3)) := by
    show StableHlo.after hostOps2 (W4 m ρ c) (Proc.devRef .tc main_v37) = _
    after_results
    rfl
  rw [e, W4_v27, W4_v1, W4_v3]
theorem W5_v27 : W5 m ρ c (Proc.devRef .tc main_v27) = h2 m c := by
  have e : W5 m ρ c (Proc.devRef .tc main_v27) = W4 m ρ c (Proc.devRef .tc main_v27) := by
    show StableHlo.after hostOps2 (W4 m ρ c) (Proc.devRef .tc main_v27) = _
    after_results
  rw [e, W4_v27]
theorem W5_v38 : W5 m ρ c (Proc.devRef .tc main_v38) = shapeCast S1x2 (m ((c : Thread nD τ).loc main_arg10)) shapeCasts_S2_S1x2 := by
  have e : W5 m ρ c (Proc.devRef .tc main_v38) = shapeCast S1x2 (W4 m ρ c (Proc.devRef .tc main_arg10)) shapeCasts_S2_S1x2 := by
    show StableHlo.after hostOps2 (W4 m ρ c) (Proc.devRef .tc main_v38) = _
    after_results
    rfl
  rw [e, W4_arg10]
theorem W5_arg8 : W5 m ρ c (Proc.devRef .tc main_arg8) = (m ((c : Thread nD τ).loc main_arg8)) := by
  have e : W5 m ρ c (Proc.devRef .tc main_arg8) = W4 m ρ c (Proc.devRef .tc main_arg8) := by
    show StableHlo.after hostOps2 (W4 m ρ c) (Proc.devRef .tc main_arg8) = _
    after_results
  rw [e, W4_arg8]
theorem W5_arg9 : W5 m ρ c (Proc.devRef .tc main_arg9) = (m ((c : Thread nD τ).loc main_arg9)) := by
  have e : W5 m ρ c (Proc.devRef .tc main_arg9) = W4 m ρ c (Proc.devRef .tc main_arg9) := by
    show StableHlo.after hostOps2 (W4 m ρ c) (Proc.devRef .tc main_arg9) = _
    after_results
  rw [e, W4_arg9]

/-! ## After the third region: the result -/

theorem W6_v39 : W6 m ρ c (Proc.devRef .tc main_v39) = h3 m c := by
  refine (W6_arr m ρ c 5).trans ((Layer3.final (V5 m ρ) c).trans ?_)
  show softmaxOut (N := 100000) (K := 16) (M := 2) (W5 m ρ c (Proc.devRef .tc main_v37)) (W5 m ρ c (Proc.devRef .tc main_v27))
    (W5 m ρ c (Proc.devRef .tc main_arg8)) (W5 m ρ c (Proc.devRef .tc main_arg9)) (fun n => W5 m ρ c (Proc.devRef .tc main_v38) (ix2 (0 : Fin 1) n)) = _
  rw [W5_v37, W5_v27, W5_arg8, W5_arg9, W5_v38]
  unfold h3 H3
  refine congrArg _ (funext fun n => ?_)
  exact shapeCast_a_1a_apply _ _ 0 n

end Cert.KernelIdeal.Boundary

end
-- ==== Proof.HostLayer.lean ====
/-
  A whole layer in the whole-array spelling is the layer function: the affine part by two products with no
  accumulator and the bias laid along the rows, then either the cut-off at zero (against a zero laid over the whole
  array) or the row softmax by reduces over axis 1. Entry by entry these are `reluOut` and `softmaxOut`.
-/
import proofs.«145360_j13211319403151_1_alg».proof.Proof.LayerSpec
import proofs.«145360_j13211319403151_1_alg».proof.Proof.SoftmaxTail

noncomputable section

namespace Cert.GraphConv

open Idealize.ShloMosaic Idealize.ShloMosaic.ValueIdx

variable {R K M : Nat}

/-- A hidden layer computed on the whole arrays. -/
theorem relu_dot_eq (d : DotDims ⟨2, ![R, K]⟩ ⟨2, ![K, M]⟩ ⟨2, ![R, M]⟩)
    (hlb : d.lhsBatch = []) (hln : d.lhsNonContracting = [0]) (hlc : d.lhsContracting = [1])
    (hrb : d.rhsBatch = []) (hrn : d.rhsNonContracting = [1]) (hrc : d.rhsContracting = [0])
    (a x : FVec Ideal ⟨2, ![R, K]⟩ .f32) (wr wo : FVec Ideal ⟨2, ![K, M]⟩ .f32) (b : FVec Ideal ⟨1, ![M]⟩ .f32)
    (hb1 : (⟨1, ![M]⟩ : Shape).BroadcastsInDim ⟨2, ![1, M]⟩ ![1])
    (hb2 : (⟨2, ![1, M]⟩ : Shape).BroadcastsInDim ⟨2, ![R, M]⟩ ![0, 1])
    (hb0 : (⟨0, ![]⟩ : Shape).BroadcastsInDim ⟨2, ![R, M]⟩ ![]) :
    maximumf
      (addf (addf (Host.dotGeneral d none a wr) (Host.dotGeneral d none x wo))
        (broadcastInDim ⟨2, ![R, M]⟩ ![0, 1] hb2 (broadcastInDim ⟨2, ![1, M]⟩ ![1] hb1 b)))
      (broadcastInDim ⟨2, ![R, M]⟩ ![] hb0 (constant (F := Ideal) ⟨0, ![]⟩ .f32 0x00000000#32))
      = reluOut a x wr wo (fun n => b (ix1 n)) := by
  funext j
  obtain ⟨p, n, rfl⟩ : ∃ (p : Fin R) (n : Fin M), j = ix2 p n := ⟨j 0, j 1, eq_ix2 j⟩
  rw [maximumf_apply, affine_dot_apply d hlb hln hlc hrb hrn hrc]
  rfl

/-- The softmax layer computed on the whole arrays. -/
theorem softmax_dot_eq (d : DotDims ⟨2, ![R, K]⟩ ⟨2, ![K, M]⟩ ⟨2, ![R, M]⟩)
    (hlb : d.lhsBatch = []) (hln : d.lhsNonContracting = [0]) (hlc : d.lhsContracting = [1])
    (hrb : d.rhsBatch = []) (hrn : d.rhsNonContracting = [1]) (hrc : d.rhsContracting = [0])
    (a x : FVec Ideal ⟨2, ![R, K]⟩ .f32) (wr wo : FVec Ideal ⟨2, ![K, M]⟩ .f32) (b : FVec Ideal ⟨1, ![M]⟩ .f32)
    (hb1 : (⟨1, ![M]⟩ : Shape).BroadcastsInDim ⟨2, ![1, M]⟩ ![1])
    (hb2 : (⟨2, ![1, M]⟩ : Shape).BroadcastsInDim ⟨2, ![R, M]⟩ ![0, 1])
    (hred' : (⟨2, ![R, M]⟩ : Shape).ReducesTo [1] ⟨1, ![R]⟩) (hu : 0 < (⟨0, ![]⟩ : Shape).numel)
    (hc0 : (⟨0, ![]⟩ : Shape).BroadcastsInDim ⟨1, ![R]⟩ ![])
    (hc1 : (⟨1, ![R]⟩ : Shape).BroadcastsInDim ⟨2, ![R, 1]⟩ ![0])
    (hc2 : (⟨2, ![R, 1]⟩ : Shape).BroadcastsInDim ⟨2, ![R, M]⟩ ![0, 1]) :
    Host.divf
      (Host.exp (subf
        (addf (addf (Host.dotGeneral d none a wr) (Host.dotGeneral d none x wo))
          (broadcastInDim ⟨2, ![R, M]⟩ ![0, 1] hb2 (broadcastInDim ⟨2, ![1, M]⟩ ![1] hb1 b)))
        (broadcastInDim ⟨2, ![R, M]⟩ ![0, 1] hc2 (broadcastInDim ⟨2, ![R, 1]⟩ ![0] hc1
          (maximumf (broadcastInDim ⟨1, ![R]⟩ ![] hc0 (constant (F := Ideal) ⟨0, ![]⟩ .f32 0xFF800000#32))
            (Host.reduce FloatOps.maximumf
              (addf (addf (Host.dotGeneral d none a wr) (Host.dotGeneral d none x wo))
                (broadcastInDim ⟨2, ![R, M]⟩ ![0, 1] hb2 (broadcastInDim ⟨2, ![1, M]⟩ ![1] hb1 b)))
              (constant (F := Ideal) ⟨0, ![]⟩ .f32 0xFF800000#32) hred' hu))))))
      (broadcastInDim ⟨2, ![R, M]⟩ ![0, 1] hc2 (broadcastInDim ⟨2, ![R, 1]⟩ ![0] hc1
        (Host.reduceAdd
          (Host.exp (subf
            (addf (addf (Host.dotGeneral d none a wr) (Host.dotGeneral d none x wo))
              (broadcastInDim ⟨2, ![R, M]⟩ ![0, 1] hb2 (broadcastInDim ⟨2, ![1, M]⟩ ![1] hb1 b)))
            (broadcastInDim ⟨2, ![R, M]⟩ ![0, 1] hc2 (broadcastInDim ⟨2, ![R, 1]⟩ ![0] hc1
              (maximumf (broadcastInDim ⟨1, ![R]⟩ ![] hc0 (constant (F := Ideal) ⟨0, ![]⟩ .f32 0xFF800000#32))
                (Host.reduce FloatOps.maximumf
                  (addf (addf (Host.dotGeneral d none a wr) (Host.dotGeneral d none x wo))
                    (broadcastInDim ⟨2, ![R, M]⟩ ![0, 1] hb2 (broadcastInDim ⟨2, ![1, M]⟩ ![1] hb1 b)))
                  (constant (F := Ideal) ⟨0, ![]⟩ .f32 0xFF800000#32) hred' hu))))))
          (constant (F := Ideal) ⟨0, ![]⟩ .f32 0x00000000#32) hred' hu)))
      = softmaxOut a x wr wo (fun n => b (ix1 n)) := by
  funext j
  obtain ⟨p, n, rfl⟩ : ∃ (p : Fin R) (n : Fin M), j = ix2 p n := ⟨j 0, j 1, eq_ix2 j⟩
  rw [softmax_reduce_apply _ hred' hu hc0 hc1 hc2 p n]
  unfold softmaxOut
  refine congrArg (fun h => softmaxRow h n) (funext fun n' => ?_)
  exact affine_dot_apply d hlb hln hlc hrb hrn hrc a x wr wo b hb1 hb2 p n'

end Cert.GraphConv

end
-- ==== Proof.RefValue.lean ====
/-
  The reference's result as the same three layer functions of the launch arguments. Its run ends with the result at
  one long term: the third layer's whole-array spelling of the second's of the first's, each taking the neighbourhood
  sum (scatter-add by target node of the rows gathered by source node) of the layer before. Named as functions, the
  term is `hostH3 (hostH2 (hostH1 z e ..) e ..) e ..`, and each `hostH` is the layer function of LayerSpec.
-/
import proofs.«145360_j13211319403151_1_alg».proof.Defs
import proofs.«145360_j13211319403151_1_alg».proof.Proof.Gen.ReferenceIdeal.Run
import proofs.«145360_j13211319403151_1_alg».proof.Proof.HostLayer

set_option maxRecDepth 16384

noncomputable section

namespace Cert.ReferenceIdeal.RefValue

open Cert.ReferenceIdeal Cert.ReferenceIdeal.Gen Cert.GraphConv
open Idealize.ShloMosaic Idealize.ShloMosaic.ValueIdx Idealize.ShloMosaic.TcCoe Idealize.SL.Sem

/-! ## The shared host chains, as functions -/

/-- Row 0 of the edge list: each edge's source node. -/
def srcRow (e : IVec S2x1600000 32) : IVec S1600000 32 :=
  shapeCast S1600000 (extractStridedSlice S1x1600000 ![0, 0] e slices_S2x1600000_S1x1600000_0_0) shapeCasts_S1x1600000_S1600000

/-- Row 1 of the edge list: each edge's target node. -/
def dstRow (e : IVec S2x1600000 32) : IVec S1600000 32 :=
  shapeCast S1600000 (extractStridedSlice S1x1600000 ![1, 0] e slices_S2x1600000_S1x1600000_1_0) shapeCasts_S1x1600000_S1600000

/-- The source indices as the gather takes them: a negative index moved up by the node count, as a column. -/
def gatherIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The neighbourhood sums of a 64-wide node array. -/
def nbr64 (x : FVec Ideal S100000x64 .f32) (s d : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 x (gatherIdx s))

/-- The neighbourhood sums of a 32-wide node array. -/
def nbr32 (x : FVec Ideal S100000x32 .f32) (s d : IVec S1600000 32) : FVec Ideal S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (Host.gather gather_S100000x32_S1600000x1_S1600000x32_1_0_n_n_0_1_132 x (gatherIdx s))

/-- The neighbourhood sums of a 16-wide node array. -/
def nbr16 (x : FVec Ideal S100000x16 .f32) (s d : IVec S1600000 32) : FVec Ideal S100000x16 .f32 :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 d)
    (Host.gather gather_S100000x16_S1600000x1_S1600000x16_1_0_n_n_0_1_116 x (gatherIdx s))

/-! ## The three layers as functions of the arguments -/

/-- The first hidden layer. -/
def H1 (z : FVec Ideal S100000x64 .f32) (e : IVec S2x1600000 32) (wr wo : FVec Ideal S64x32 .f32) (b : FVec Ideal S32 .f32) :
    FVec Ideal S100000x32 .f32 :=
  reluOut (N := 100000) (K := 64) (M := 32) (nbr64 z (srcRow e) (dstRow e)) z wr wo (fun n => b (ix1 n))

/-- The second hidden layer, of the first. -/
def H2 (h : FVec Ideal S100000x32 .f32) (e : IVec S2x1600000 32) (wr wo : FVec Ideal S32x16 .f32) (b : FVec Ideal S16 .f32) :
    FVec Ideal S100000x16 .f32 :=
  reluOut (N := 100000) (K := 32) (M := 16) (nbr32 h (srcRow e) (dstRow e)) h wr wo (fun n => b (ix1 n))

/-- The softmax layer, of the second hidden layer. -/
def H3 (h : FVec Ideal S100000x16 .f32) (e : IVec S2x1600000 32) (wr wo : FVec Ideal S16x2 .f32) (b : FVec Ideal S2 .f32) :
    FVec Ideal S100000x2 .f32 :=
  softmaxOut (N := 100000) (K := 16) (M := 2) (nbr16 h (srcRow e) (dstRow e)) h wr wo (fun n => b (ix1 n))

/-! ## The layers as the program spells them -/

/-- The first hidden layer, in the program's operations. -/
def hostH1 (z : FVec Ideal S100000x64 .f32) (e : IVec S2x1600000 32) (wr wo : FVec Ideal S64x32 .f32) (b : FVec Ideal S32 .f32) :
    FVec Ideal S100000x32 .f32 :=
  maximumf (addf (addf (Host.dotGeneral dot_S100000x64_S64x32_S100000x32_1_0_0_1_n_n none (nbr64 z (srcRow e) (dstRow e)) wr)
      (Host.dotGeneral dot_S100000x64_S64x32_S100000x32_1_0_0_1_n_n none z wo))
    (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- The second hidden layer, in the program's operations. -/
def hostH2 (h : FVec Ideal S100000x32 .f32) (e : IVec S2x1600000 32) (wr wo : FVec Ideal S32x16 .f32) (b : FVec Ideal S16 .f32) :
    FVec Ideal S100000x16 .f32 :=
  maximumf (addf (addf (Host.dotGeneral dot_S100000x32_S32x16_S100000x16_1_0_0_1_n_n none (nbr32 h (srcRow e) (dstRow e)) wr)
      (Host.dotGeneral dot_S100000x32_S32x16_S100000x16_1_0_0_1_n_n none h wo))
    (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- The last layer's affine part, in the program's operations. -/
def hostU3 (h : FVec Ideal S100000x16 .f32) (e : IVec S2x1600000 32) (wr wo : FVec Ideal S16x2 .f32) (b : FVec Ideal S2 .f32) :
    FVec Ideal S100000x2 .f32 :=
  addf (addf (Host.dotGeneral dot_S100000x16_S16x2_S100000x2_1_0_0_1_n_n none (nbr16 h (srcRow e) (dstRow e)) wr)
      (Host.dotGeneral dot_S100000x16_S16x2_S100000x2_1_0_0_1_n_n none h wo))
    (broadcastInDim S100000x2 ![0, 1] bcast_S1x2_S100000x2_0_1 (broadcastInDim S1x2 ![1] bcast_S2_S1x2_1 b))

/-- The row maxima of a two-wide array laid back over it, in the program's operations. -/
def hostRowMax (u : FVec Ideal S100000x2 .f32) : FVec Ideal S100000x2 .f32 :=
  broadcastInDim S100000x2 ![0, 1] bcast_S100000x1_S100000x2_0_1 (broadcastInDim S100000x1 ![0] bcast_S100000_S100000x1_0
    (maximumf (broadcastInDim S100000 ![] bcast_S_S100000 (constant S_ .f32 0xFF800000#32))
      (Host.reduce FloatOps.maximumf u (constant S_ .f32 0xFF800000#32) reducesTo_S100000x2_S100000_d1 h_S_)))

/-- The softmax layer, in the program's operations. -/
def hostH3 (h : FVec Ideal S100000x16 .f32) (e : IVec S2x1600000 32) (wr wo : FVec Ideal S16x2 .f32) (b : FVec Ideal S2 .f32) :
    FVec Ideal S100000x2 .f32 :=
  Host.divf (Host.exp (subf (hostU3 h e wr wo b) (hostRowMax (hostU3 h e wr wo b))))
    (broadcastInDim S100000x2 ![0, 1] bcast_S100000x1_S100000x2_0_1 (broadcastInDim S100000x1 ![0] bcast_S100000_S100000x1_0
      (Host.reduceAdd (Host.exp (subf (hostU3 h e wr wo b) (hostRowMax (hostU3 h e wr wo b))))
        (constant S_ .f32 0x00000000#32) reducesTo_S100000x2_S100000_d1 h_S_)))

theorem hostH1_eq (z : FVec Ideal S100000x64 .f32) (e : IVec S2x1600000 32) (wr wo : FVec Ideal S64x32 .f32) (b : FVec Ideal S32 .f32) :
    hostH1 z e wr wo b = H1 z e wr wo b :=
  relu_dot_eq (R := 100000) (K := 64) (M := 32) dot_S100000x64_S64x32_S100000x32_1_0_0_1_n_n rfl rfl rfl rfl rfl rfl
    (nbr64 z (srcRow e) (dstRow e)) z wr wo b bcast_S32_S1x32_1 bcast_S1x32_S100000x32_0_1 bcast_S_S100000x32

theorem hostH2_eq (h : FVec Ideal S100000x32 .f32) (e : IVec S2x1600000 32) (wr wo : FVec Ideal S32x16 .f32) (b : FVec Ideal S16 .f32) :
    hostH2 h e wr wo b = H2 h e wr wo b :=
  relu_dot_eq (R := 100000) (K := 32) (M := 16) dot_S100000x32_S32x16_S100000x16_1_0_0_1_n_n rfl rfl rfl rfl rfl rfl
    (nbr32 h (srcRow e) (dstRow e)) h wr wo b bcast_S16_S1x16_1 bcast_S1x16_S100000x16_0_1 bcast_S_S100000x16

theorem hostH3_eq (h : FVec Ideal S100000x16 .f32) (e : IVec S2x1600000 32) (wr wo : FVec Ideal S16x2 .f32) (b : FVec Ideal S2 .f32) :
    hostH3 h e wr wo b = H3 h e wr wo b :=
  softmax_dot_eq (R := 100000) (K := 16) (M := 2) dot_S100000x16_S16x2_S100000x2_1_0_0_1_n_n rfl rfl rfl rfl rfl rfl
    (nbr16 h (srcRow e) (dstRow e)) h wr wo b bcast_S2_S1x2_1 bcast_S1x2_S100000x2_0_1
    reducesTo_S100000x2_S100000_d1 h_S_ bcast_S_S100000 bcast_S100000_S100000x1_0 bcast_S100000x1_S100000x2_0_1

variable (m : (ℓ : Loc nD τ sig) → Buf (Elt Ideal) ℓ) (ρ : Dev nD → PrngReg) (c : Dev nD)

/-- The first hidden layer of the launch arguments. -/
abbrev h1 : FVec Ideal S100000x32 .f32 := H1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The second hidden layer of the launch arguments. -/
abbrev h2 : FVec Ideal S100000x16 .f32 := H2 (h1 m c) (m ((c.tc : Thread nD τ).loc main_arg1)) (m ((c.tc : Thread nD τ).loc main_arg5)) (m ((c.tc : Thread nD τ).loc main_arg6)) (m ((c.tc : Thread nD τ).loc main_arg7))
/-- The result of the launch arguments. -/
abbrev h3 : FVec Ideal S100000x2 .f32 := H3 (h2 m c) (m ((c.tc : Thread nD τ).loc main_arg1)) (m ((c.tc : Thread nD τ).loc main_arg8)) (m ((c.tc : Thread nD τ).loc main_arg9)) (m ((c.tc : Thread nD τ).loc main_arg10))

/-- The run's long term is the three layers in the program's spelling, one inside the other. -/
theorem res_host : Value.res_main_v64 (F := Ideal) m c
    = hostH3 (hostH2 (hostH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        (m ((c.tc : Thread nD τ).loc main_arg1)) (m ((c.tc : Thread nD τ).loc main_arg5)) (m ((c.tc : Thread nD τ).loc main_arg6)) (m ((c.tc : Thread nD τ).loc main_arg7)))
      (m ((c.tc : Thread nD τ).loc main_arg1)) (m ((c.tc : Thread nD τ).loc main_arg8)) (m ((c.tc : Thread nD τ).loc main_arg9)) (m ((c.tc : Thread nD τ).loc main_arg10)) := by
  unfold Value.res_main_v64 hostH3 hostRowMax hostU3 hostH2 hostH1 nbr16 nbr32 nbr64 gatherIdx srcRow dstRow
  rfl

/-- The reference's result is the softmax layer of the second hidden layer of the first. -/
theorem res_eq : Value.res_main_v64 (F := Ideal) m c = h3 m c := by
  rw [res_host, hostH1_eq, hostH2_eq, hostH3_eq]

/-- The reference's run with its result named. -/
theorem run : θ_run defs (onTc (τ := τ) (main (F := Ideal))) ⟨m, fun _ => 0, ρ⟩ fun r => ∀ c : Dev nD,
      r.2.mem ((c.tc : Thread nD τ).loc main_v64) = h3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (res_eq m c), (h c).2⟩) (Value.run (F := Ideal) m ρ)

end Cert.ReferenceIdeal.RefValue

end
-- ==== Proof.lean ====
/-
  A three-layer graph convolution (node features 64 -> 32 -> 16 -> 2 over 100000 nodes and 1600000 edges), the
  last layer a row softmax, computed in ten row blocks per layer, against the same network computed on whole arrays.

  Each layer takes the neighbourhood sums of the layer before (a scatter-add, by target node, of the rows gathered by
  source node: the same host operations in both programs, carried as one function) and computes, for node p and
  feature n, lin p n = sum_k agg (p, k) wrel (k, n) + sum_k x (p, k) wroot (k, n) + b n, then max (., 0) in the two
  hidden layers and the softmax of the row in the last. The blocked program forms the two products by accumulating
  into zero blocks (after narrowing its operands, the identity over the extended reals), lays the bias row along the
  block, and takes the softmax with lane reductions; the whole-array program uses products with no accumulator,
  broadcasts and reduces over axis 1. Entry by entry both are the same sums, maxima and quotients of extended reals:
  no law beyond 0 + x = x is used, so finiteness of the inputs is never opened. Row p of a layer reads row p of its
  two node operands only, so the ten row blocks written back are the ten blocks of the whole-array result.

  The frames are the generated ones (the reference's is its generated run with the result dropped); the ideal pass
  rewrote nothing, so `preserves` is `True`.
-/
import proofs.«145360_j13211319403151_1_alg».proof.Defs
import proofs.«145360_j13211319403151_1_alg».proof.Proof.Gen.Kernel
import proofs.«145360_j13211319403151_1_alg».proof.Proof.Gen.Kernel.Frame
import proofs.«145360_j13211319403151_1_alg».proof.Proof.Gen.KernelIdeal
import proofs.«145360_j13211319403151_1_alg».proof.Proof.Gen.KernelIdeal.Frame
import proofs.«145360_j13211319403151_1_alg».proof.Proof.Gen.ReferenceIdeal
import proofs.«145360_j13211319403151_1_alg».proof.Proof.Gen.ReferenceIdeal.Run
import proofs.«145360_j13211319403151_1_alg».proof.Proof.Gen.Pre_finite_inputs
import proofs.«145360_j13211319403151_1_alg».proof.Proof.ValueRun
import proofs.«145360_j13211319403151_1_alg».proof.Proof.Boundary
import proofs.«145360_j13211319403151_1_alg».proof.Proof.RefValue
import Idealize.ShloMosaic.Adequacy
import Idealize.ShloMosaic.Init

noncomputable section

namespace Cert.Proof

open Idealize.ShloMosaic Idealize.SL.Sem Idealize.ShloMosaic.TcCoe

/-! ## The two programs' shared functions are the same functions -/

theorem srcRow_eq (e : IVec Cert.KernelIdeal.S2x1600000 32) : Cert.KernelIdeal.Boundary.srcRow e = Cert.ReferenceIdeal.RefValue.srcRow e := rfl
theorem dstRow_eq (e : IVec Cert.KernelIdeal.S2x1600000 32) : Cert.KernelIdeal.Boundary.dstRow e = Cert.ReferenceIdeal.RefValue.dstRow e := rfl
theorem nbr64_eq (x : FVec Ideal Cert.KernelIdeal.S100000x64 .f32) (s d : IVec Cert.KernelIdeal.S1600000 32) :
    Cert.KernelIdeal.Boundary.nbr64 x s d = Cert.ReferenceIdeal.RefValue.nbr64 x s d := rfl
theorem nbr32_eq (x : FVec Ideal Cert.KernelIdeal.S100000x32 .f32) (s d : IVec Cert.KernelIdeal.S1600000 32) :
    Cert.KernelIdeal.Boundary.nbr32 x s d = Cert.ReferenceIdeal.RefValue.nbr32 x s d := rfl
theorem nbr16_eq (x : FVec Ideal Cert.KernelIdeal.S100000x16 .f32) (s d : IVec Cert.KernelIdeal.S1600000 32) :
    Cert.KernelIdeal.Boundary.nbr16 x s d = Cert.ReferenceIdeal.RefValue.nbr16 x s d := rfl

theorem H1_eq (z : FVec Ideal Cert.KernelIdeal.S100000x64 .f32) (e : IVec Cert.KernelIdeal.S2x1600000 32)
    (wr wo : FVec Ideal Cert.KernelIdeal.S64x32 .f32) (b : FVec Ideal Cert.KernelIdeal.S32 .f32) :
    Cert.KernelIdeal.Boundary.H1 z e wr wo b = Cert.ReferenceIdeal.RefValue.H1 z e wr wo b := by
  unfold Cert.KernelIdeal.Boundary.H1 Cert.ReferenceIdeal.RefValue.H1
  rw [nbr64_eq, srcRow_eq, dstRow_eq]
theorem H2_eq (h : FVec Ideal Cert.KernelIdeal.S100000x32 .f32) (e : IVec Cert.KernelIdeal.S2x1600000 32)
    (wr wo : FVec Ideal Cert.KernelIdeal.S32x16 .f32) (b : FVec Ideal Cert.KernelIdeal.S16 .f32) :
    Cert.KernelIdeal.Boundary.H2 h e wr wo b = Cert.ReferenceIdeal.RefValue.H2 h e wr wo b := by
  unfold Cert.KernelIdeal.Boundary.H2 Cert.ReferenceIdeal.RefValue.H2
  rw [nbr32_eq, srcRow_eq, dstRow_eq]
theorem H3_eq (h : FVec Ideal Cert.KernelIdeal.S100000x16 .f32) (e : IVec Cert.KernelIdeal.S2x1600000 32)
    (wr wo : FVec Ideal Cert.KernelIdeal.S16x2 .f32) (b : FVec Ideal Cert.KernelIdeal.S2 .f32) :
    Cert.KernelIdeal.Boundary.H3 h e wr wo b = Cert.ReferenceIdeal.RefValue.H3 h e wr wo b := by
  unfold Cert.KernelIdeal.Boundary.H3 Cert.ReferenceIdeal.RefValue.H3
  rw [nbr16_eq, srcRow_eq, dstRow_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result at the softmax layer of the second
    hidden layer of the first, of those arguments. -/
theorem algebraic : Cert.algebraic_KernelIdeal_ReferenceIdeal := by
  intro m ρ m' ρ' _ hagree
  refine ⟨fun c => Cert.KernelIdeal.Boundary.h3 m c, ?_, ?_⟩
  · exact (θ_run Cert.KernelIdeal.defs _ _).mono
      (fun r h c => ⟨(h c).1.trans (Cert.KernelIdeal.Boundary.W6_v39 m ρ c), (h c).2⟩) (Cert.KernelIdeal.ValueRun.run_named m ρ)
  · refine (θ_run Cert.ReferenceIdeal.defs _ _).mono (fun r h c => ⟨(h c).1.trans ?_, (h c).2⟩)
      (Cert.ReferenceIdeal.RefValue.run m' ρ')
    obtain ⟨a0, a1, a2, a3, a4, a5, a6, a7, a8, a9, a10⟩ := hagree c
    show Cert.ReferenceIdeal.RefValue.h3 m' c = Cert.KernelIdeal.Boundary.h3 m c
    unfold Cert.ReferenceIdeal.RefValue.h3 Cert.ReferenceIdeal.RefValue.h2 Cert.ReferenceIdeal.RefValue.h1 Cert.KernelIdeal.Boundary.h3 Cert.KernelIdeal.Boundary.h2 Cert.KernelIdeal.Boundary.h1
    rw [a0, a1, a2, a3, a4, a5, a6, a7, a8, a9, a10, H1_eq, H2_eq, H3_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
